-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2 : Shape := ⟨3, ![4, 2048, 2]⟩
abbrev S4x2048x2x32 : Shape := ⟨4, ![4, 2048, 2, 32]⟩
abbrev S4x2048x128 : Shape := ⟨3, ![4, 2048, 128]⟩
abbrev S_ : Shape := ⟨0, ![]⟩

class Facts : Prop where
  bcast_S_S4x2048x2x32 : S_.BroadcastsInDim S4x2048x2x32 (![] : Fin 0 → Fin S4x2048x2x32.rank)
  reducesTo_S4x2048x2x32_S_d0_1_2_3 : S4x2048x2x32.ReducesTo [0, 1, 2, 3] S_
  h_S_ : 0 < S_.numel
  bcast_S_S4x2048x128 : S_.BroadcastsInDim S4x2048x128 (![] : Fin 0 → Fin S4x2048x128.rank)
  reducesTo_S4x2048x128_S_d0_1_2 : S4x2048x128.ReducesTo [0, 1, 2] S_
  bcast_S_S4x2048x2 : S_.BroadcastsInDim S4x2048x2 (![] : Fin 0 → Fin S4x2048x2.rank)
  reducesTo_S4x2048x2_S_d0_1_2 : S4x2048x2.ReducesTo [0, 1, 2] S_

variable [Facts]

def fn_part1 {F : FTy → Type} [FloatOps F] (main_arg0 : IVec S4x2048x2 32) (main_v13 : IVec S_ 1) (main_v15 : IVec S4x2048x2 1) (main_c_5 : IVec S_ 1) : IVec S_ 1 :=
  let main_v16 : IVec S_ 1 := (fun x v => Host.reduce IntOp.andi x v reducesTo_S4x2048x2_S_d0_1_2 h_S_) main_v15 main_c_5
  let main_v17 : IVec S_ 1 := andi main_v13 main_v16
  let main_c_6 : IVec S_ 32 := constantI S_ 32 128#32
  let main_v18 : IVec S4x2048x2 32 := broadcastInDim S4x2048x2 ![] bcast_S_S4x2048x2 main_c_6
  let main_v19 : IVec S4x2048x2 1 := cmpi .slt main_arg0 main_v18
  let main_c_7 : IVec S_ 1 := constantI S_ 1 1#1
  let main_v20 : IVec S_ 1 := (fun x v => Host.reduce IntOp.andi x v reducesTo_S4x2048x2_S_d0_1_2 h_S_) main_v19 main_c_7
  let main_v21 : IVec S_ 1 := andi main_v17 main_v20
  main_v21

def fn {F : FTy → Type} [FloatOps F] (main_arg0 : IVec S4x2048x2 32) (main_arg1 : FVec F S4x2048x2x32 .f32) (main_arg2 : FVec F S4x2048x128 .f32) (main_arg3 : FVec F S4x2048x128 .f32) : IVec S_ 1 :=
  let main_v0 : FVec F S4x2048x2x32 .f32 := Host.absf main_arg1
  let main_cst : FVec F S_ .f32 := constant S_ .f32 0x7F800000#32
  let main_v1 : FVec F S4x2048x2x32 .f32 := broadcastInDim S4x2048x2x32 ![] bcast_S_S4x2048x2x32 main_cst
  let main_v2 : IVec S4x2048x2x32 1 := cmpf .olt main_v0 main_v1
  let main_c : IVec S_ 1 := constantI S_ 1 1#1
  let main_v3 : IVec S_ 1 := (fun x v => Host.reduce IntOp.andi x v reducesTo_S4x2048x2x32_S_d0_1_2_3 h_S_) main_v2 main_c
  let main_v4 : FVec F S4x2048x128 .f32 := Host.absf main_arg2
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  let main_v9 : FVec F S4x2048x128 .f32 := Host.absf main_arg3
  let main_cst_2 : FVec F S_ .f32 := constant S_ .f32 0x7F800000#32
  let main_v10 : FVec F S4x2048x128 .f32 := broadcastInDim S4x2048x128 ![] bcast_S_S4x2048x128 main_cst_2
  let main_v11 : IVec S4x2048x128 1 := cmpf .olt main_v9 main_v10
  let main_c_3 : IVec S_ 1 := constantI S_ 1 1#1
  let main_v12 : IVec S_ 1 := (fun x v => Host.reduce IntOp.andi x v reducesTo_S4x2048x128_S_d0_1_2 h_S_) main_v11 main_c_3
  let main_v13 : IVec S_ 1 := andi main_v8 main_v12
  let main_c_4 : IVec S_ 32 := constantI S_ 32 0#32
  let main_v14 : IVec S4x2048x2 32 := broadcastInDim S4x2048x2 ![] bcast_S_S4x2048x2 main_c_4
  let main_v15 : IVec S4x2048x2 1 := cmpi .sge main_arg0 main_v14
  let main_c_5 : IVec S_ 1 := constantI S_ 1 1#1
  fn_part1 (F := F) main_arg0 main_v13 main_v15 main_c_5
-- ==== Kernel.lean ====
abbrev S4x2048x2 : Shape := ⟨3, ![4, 2048, 2]⟩
abbrev S4x2048x2x32 : Shape := ⟨4, ![4, 2048, 2, 32]⟩
abbrev S4x2048x128 : Shape := ⟨3, ![4, 2048, 128]⟩
abbrev S_ : Shape := ⟨0, ![]⟩
abbrev S2x4x2048 : Shape := ⟨3, ![2, 4, 2048]⟩
abbrev S2x8192 : Shape := ⟨2, ![2, 8192]⟩
abbrev S8192x128 : Shape := ⟨2, ![8192, 128]⟩
abbrev S128x128 : Shape := ⟨2, ![128, 128]⟩
abbrev S1x8192 : Shape := ⟨2, ![1, 8192]⟩
abbrev S8192 : Shape := ⟨1, ![8192]⟩
abbrev S8192x1 : Shape := ⟨2, ![8192, 1]⟩

abbrev nBuf : Space → Nat
  | .hbm => 17
  | .vmem => 6
  | .smem => 0
  | _ => 0

abbrev bufTy : (tb : Table) → Fin (tcTables nBuf tb) → BufTy
  | .hbm, ⟨0, _⟩ => ⟨S4x2048x2, .i32⟩
  | .hbm, ⟨1, _⟩ => ⟨S4x2048x2x32, .f32⟩
  | .hbm, ⟨2, _⟩ => ⟨S4x2048x128, .f32⟩
  | .hbm, ⟨3, _⟩ => ⟨S4x2048x128, .f32⟩
  | .hbm, ⟨4, _⟩ => ⟨S_, .f32⟩
  | .hbm, ⟨5, _⟩ => ⟨S4x2048x2, .f32⟩
  | .hbm, ⟨6, _⟩ => ⟨S_, .f32⟩
  | .hbm, ⟨7, _⟩ => ⟨S4x2048x2, .f32⟩
  | .hbm, ⟨8, _⟩ => ⟨S4x2048x2, .f32⟩
  | .hbm, ⟨9, _⟩ => ⟨S2x4x2048, .i32⟩
  | .hbm, ⟨10, _⟩ => ⟨S2x8192, .i32⟩
  | .hbm, ⟨11, _⟩ => ⟨S2x4x2048, .f32⟩
  | .hbm, ⟨12, _⟩ => ⟨S2x8192, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S4x2048x128, .f32⟩
  | .local _ .vmem, ⟨0, _⟩ => ⟨S2x8192, .f32⟩
  | .local _ .vmem, ⟨1, _⟩ => ⟨S2x8192, .i32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S128x128, .f32⟩
  | _, _ => ⟨S4x2048x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x8192 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  reducesTo_S4x2048x2x32_S4x2048x2_d3 : S4x2048x2x32.ReducesTo [3] S4x2048x2
  h_S_ : 0 < S_.numel
  bcast_S_S4x2048x2 : S_.BroadcastsInDim S4x2048x2 (![] : Fin 0 → Fin S4x2048x2.rank)
  transposes_S4x2048x2_S2x4x2048_2_0_1 : S4x2048x2.Transposes [2, 0, 1] S2x4x2048
  shapeCasts_S2x4x2048_S2x8192 : S2x4x2048.ShapeCasts S2x8192
  shapeCasts_S4x2048x128_S8192x128 : S4x2048x128.ShapeCasts S8192x128
  iota_S8192x128_d1_w32 : S8192x128.Iotas .tc 32 [1]
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S2x8192_S1x8192_0_0 : ∀ a, (![0, 0] : Fin 2 → Nat) a + S1x8192.size a ≤ S2x8192.size a
  h_S1x8192 : 0 < S1x8192.numel
  shapeCasts_S1x8192_S8192 : S1x8192.ShapeCasts S8192
  shapeCasts_S8192_S8192x1 : S8192.ShapeCasts S8192x1
  broadcasts_S8192x1_S8192x128 : S8192x1.Broadcasts S8192x128
  natLt_1_32 : 1 < 32
  inb_S2x8192_S1x8192_1_0 : ∀ a, (![1, 0] : Fin 2 → Nat) a + S1x8192.size a ≤ S2x8192.size a
  shapeCasts_S8192x128_S4x2048x128 : S8192x128.ShapeCasts S4x2048x128
  dot_S8192x128_S8192x128_S128x128_0_0_1_1_n_n_wf : DotDims.WF S8192x128 S8192x128 S128x128 [0] [0] [1] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x8192.size a ≤ S2x8192.size a
  hwx0_0 : ∀ i : grid0.Coords, EltTy.bits .f32 = 32 ∨ (Rect.block (s := S2x8192) S2x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x8192.size a ≤ S2x8192.size a
  hwx0_1 : ∀ i : grid0.Coords, EltTy.bits .i32 = 32 ∨ (Rect.block (s := S2x8192) S2x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .f32 = 32 ∨ (Rect.block (s := S8192x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x128.size a
  hwx0_3 : ∀ i : grid0.Coords, EltTy.bits .f32 = 32 ∨ (Rect.block (s := S8192x128) S8192x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S8192x128.size a
  hwx0_4 : ∀ i : grid0.Coords, EltTy.bits .f32 = 32 ∨ (Rect.block (s := S8192x128) S8192x128.size (cc0_transform_4 i) (hinb0_4 i)).WholeWords (EltTy.packing .f32)

variable [Facts₀]

def dot_S8192x128_S8192x128_S128x128_0_0_1_1_n_n : DotDims S8192x128 S8192x128 S128x128 where
  lhsContracting := [0]
  rhsContracting := [0]
  lhsNonContracting := [1]
  rhsNonContracting := [1]
  lhsBatch := []
  rhsBatch := []
  wf := dot_S8192x128_S8192x128_S128x128_0_0_1_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v6) S2x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S8192x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x2 : Shape := ⟨3, ![4, 2048, 2]⟩
abbrev S4x2048x2x32 : Shape := ⟨4, ![4, 2048, 2, 32]⟩
abbrev S4x2048x128 : Shape := ⟨3, ![4, 2048, 128]⟩
abbrev S4x2048x2x32x1 : Shape := ⟨5, ![4, 2048, 2, 32, 1]⟩
abbrev S4x2048x1x1x128 : Shape := ⟨5, ![4, 2048, 1, 1, 128]⟩
abbrev S4x2048x2x32x128 : Shape := ⟨5, ![4, 2048, 2, 32, 128]⟩
abbrev S16384x32x128 : Shape := ⟨3, ![16384, 32, 128]⟩
abbrev S16384 : Shape := ⟨1, ![16384]⟩
abbrev S_ : Shape := ⟨0, ![]⟩
abbrev S128x32x128 : Shape := ⟨3, ![128, 32, 128]⟩
abbrev S16384x1 : Shape := ⟨2, ![16384, 1]⟩
abbrev S128x128 : Shape := ⟨2, ![128, 128]⟩
abbrev S4x2048x2x1 : Shape := ⟨4, ![4, 2048, 2, 1]⟩
abbrev S4x2048x2x128 : Shape := ⟨4, ![4, 2048, 2, 128]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x2, .i32⟩
  | .hbm, ⟨1, _⟩ => ⟨S4x2048x2x32, .f32⟩
  | .hbm, ⟨2, _⟩ => ⟨S4x2048x128, .f32⟩
  | .hbm, ⟨3, _⟩ => ⟨S4x2048x128, .f32⟩
  | .hbm, ⟨4, _⟩ => ⟨S4x2048x2x32x1, .f32⟩
  | .hbm, ⟨5, _⟩ => ⟨S4x2048x1x1x128, .f32⟩
  | .hbm, ⟨6, _⟩ => ⟨S4x2048x2x32x128, .f32⟩
  | .hbm, ⟨7, _⟩ => ⟨S4x2048x2x32x128, .f32⟩
  | .hbm, ⟨8, _⟩ => ⟨S4x2048x2x32x128, .f32⟩
  | .hbm, ⟨9, _⟩ => ⟨S16384x32x128, .f32⟩
  | .hbm, ⟨10, _⟩ => ⟨S16384, .i32⟩
  | .hbm, ⟨11, _⟩ => ⟨S_, .f32⟩
  | .hbm, ⟨12, _⟩ => ⟨S128x32x128, .f32⟩
  | .hbm, ⟨13, _⟩ => ⟨S16384x1, .i32⟩
  | .hbm, ⟨14, _⟩ => ⟨S128x32x128, .f32⟩
  | .hbm, ⟨15, _⟩ => ⟨S_, .f32⟩
  | .hbm, ⟨16, _⟩ => ⟨S128x128, .f32⟩
  | .hbm, ⟨17, _⟩ => ⟨S_, .f32⟩
  | .hbm, ⟨18, _⟩ => ⟨S128x128, .f32⟩
  | .hbm, ⟨19, _⟩ => ⟨S128x128, .f32⟩
  | .hbm, ⟨20, _⟩ => ⟨S_, .i32⟩
  | .hbm, ⟨21, _⟩ => ⟨S4x2048x2, .i32⟩
  | .hbm, ⟨22, _⟩ => ⟨S4x2048x2, .i1⟩
  | .hbm, ⟨23, _⟩ => ⟨S_, .i32⟩
  | .hbm, ⟨24, _⟩ => ⟨S4x2048x2, .i32⟩
  | .hbm, ⟨25, _⟩ => ⟨S4x2048x2, .i32⟩
  | .hbm, ⟨26, _⟩ => ⟨S4x2048x2, .i32⟩
  | .hbm, ⟨27, _⟩ => ⟨S4x2048x2x1, .i32⟩
  | .hbm, ⟨28, _⟩ => ⟨S4x2048x2x128, .f32⟩
  | .hbm, ⟨29, _⟩ => ⟨S_, .f32⟩
  | .hbm, ⟨30, _⟩ => ⟨S4x2048x128, .f32⟩
  | .hbm, ⟨31, _⟩ => ⟨S4x2048x128, .f32⟩
  | _, _ => ⟨S4x2048x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S4x2048x2x32_S4x2048x2x32x1_0_1_2_3 : S4x2048x2x32.BroadcastsInDim S4x2048x2x32x1 (![0, 1, 2, 3] : Fin 4 → Fin S4x2048x2x32x1.rank)
  bcast_S4x2048x128_S4x2048x1x1x128_0_1_4 : S4x2048x128.BroadcastsInDim S4x2048x1x1x128 (![0, 1, 4] : Fin 3 → Fin S4x2048x1x1x128.rank)
  bcast_S4x2048x2x32x1_S4x2048x2x32x128_0_1_2_3_4 : S4x2048x2x32x1.BroadcastsInDim S4x2048x2x32x128 (![0, 1, 2, 3, 4] : Fin 5 → Fin S4x2048x2x32x128.rank)
  bcast_S4x2048x1x1x128_S4x2048x2x32x128_0_1_2_3_4 : S4x2048x1x1x128.BroadcastsInDim S4x2048x2x32x128 (![0, 1, 2, 3, 4] : Fin 5 → Fin S4x2048x2x32x128.rank)
  shapeCasts_S4x2048x2x32x128_S16384x32x128 : S4x2048x2x32x128.ShapeCasts S16384x32x128
  shapeCasts_S4x2048x2_S16384 : S4x2048x2.ShapeCasts S16384
  bcast_S_S128x32x128 : S_.BroadcastsInDim S128x32x128 (![] : Fin 0 → Fin S128x32x128.rank)
  bcast_S16384_S16384x1_0 : S16384.BroadcastsInDim S16384x1 (![0] : Fin 1 → Fin S16384x1.rank)
  reducesTo_S128x32x128_S128x128_d1 : S128x32x128.ReducesTo [1] S128x128
  h_S_ : 0 < S_.numel
  bcast_S_S128x128 : S_.BroadcastsInDim S128x128 (![] : Fin 0 → Fin S128x128.rank)
  bcast_S_S4x2048x2 : S_.BroadcastsInDim S4x2048x2 (![] : Fin 0 → Fin S4x2048x2.rank)
  bcast_S4x2048x2_S4x2048x2x1_0_1_2 : S4x2048x2.BroadcastsInDim S4x2048x2x1 (![0, 1, 2] : Fin 3 → Fin S4x2048x2x1.rank)
  reducesTo_S4x2048x2x128_S4x2048x128_d2 : S4x2048x2x128.ReducesTo [2] S4x2048x128
  scatter_S128x32x128_S16384x1_S16384x32x128_12_0_0_1_wf : ScatterDims.WF S128x32x128 S16384x1 S16384x32x128 [1, 2] [0] [0] 1
  gather_S128x128_S4x2048x2x1_S4x2048x2x128_3_0_n_n_0_3_1128_wf : GatherDims.WF S128x128 S4x2048x2x1 S4x2048x2x128 [3] [0] [] [0] [] 3 ![1, 128]

variable [Facts₀]

def scatter_S128x32x128_S16384x1_S16384x32x128_12_0_0_1 : ScatterDims S128x32x128 S16384x1 S16384x32x128 where
  updateWindowDims := [1, 2]
  insertedWindowDims := [0]
  scatterDimsToOperandDims := [0]
  indexVectorDim := 1
  wf := scatter_S128x32x128_S16384x1_S16384x32x128_12_0_0_1_wf
def gather_S128x128_S4x2048x2x1_S4x2048x2x128_3_0_n_n_0_3_1128 : GatherDims S128x128 S4x2048x2x1 S4x2048x2x128 where
  offsetDims := [3]
  collapsedSliceDims := [0]
  operandBatchingDims := []
  startIndicesBatchingDims := []
  startIndexMap := [0]
  indexVectorDim := 3
  sliceSizes := ![1, 128]
  wf := gather_S128x128_S4x2048x2x1_S4x2048x2x128_3_0_n_n_0_3_1128_wf

class Facts : Prop extends Facts₀ where

variable [Facts]
-- ==== Proof.Spec.lean ====
/-
  The mathematics both programs compute, over the literal shapes, at the extended reals.

  Indices `idx : [4, 2048, 2]` put each pair (position (b, s), slot k) into one of 128 buckets; `keys : [4, 2048, 2, 32]`,
  `vals, q : [4, 2048, 128]`. Bucket `p` accumulates, for every pair that points at it, the outer product of the pair's 32 keys
  with the position's 128 values; the mean over the 32 keys is taken; and position (b, s) reads back the two buckets its slots
  point at, adds them and multiplies by `q`.

  One program takes the mean of the keys FIRST (a weight per pair), scatters weight · value by a 0/1 matrix product, and
  gathers by a 0/1 matrix product (`kerArr`); the other scatters the outer products, sums over the 32 keys, divides by 32,
  and gathers by index, a negative index wrapped by 128 and any index clamped into the table (`refArr`). They agree when
  the entries are real numbers (the product distributes over the sums) and every index is a bucket number.
-/
import Idealize.ShloMosaic.PureOps.Ideal
import Idealize.ShloMosaic.Lib.ValueIdx

noncomputable section

open scoped BigOperators

namespace Cert.Buckets

open Idealize.ShloMosaic Idealize.ShloMosaic.ValueIdx

/-- indices: (b, s, k) -/
abbrev SI : Shape := ⟨3, ![4, 2048, 2]⟩
/-- keys: (b, s, k, c) -/
abbrev SK : Shape := ⟨4, ![4, 2048, 2, 32]⟩
/-- values, queries, result: (b, s, d) -/
abbrev SV : Shape := ⟨3, ![4, 2048, 128]⟩
/-- per-slot rows over the flattened positions: (k, n), n = 2048 b + s -/
abbrev SW : Shape := ⟨2, ![2, 8192]⟩
/-- flattened positions by lane: (n, d) -/
abbrev SN : Shape := ⟨2, ![8192, 128]⟩
/-- buckets by lane: (p, d) -/
abbrev SP : Shape := ⟨2, ![128, 128]⟩

/-- The word 0x42000000 is the real number 32. -/
theorem ofBits_32 : Ideal.ofBits .f32 0x42000000#32 = ((32 : ℝ) : EReal) := by
  simp [Ideal.ofBits, Ideal.ieee, -EReal.coe_mul]; norm_num

/-- 1 where the index word is bucket `p`'s number, else 0: one entry of the 0/1 matrix. -/
def hit (w : BitVec 32) (p : Fin 128) : EReal := if w.toInt = (p.val : ℤ) then 1 else 0

/-! ## Flattened positions -/

/-- the batch of flattened position `n` -/
def posB (n : Fin 8192) : Fin 4 := ⟨n.val / 2048, by have := n.isLt; omega⟩
/-- the place in its batch of flattened position `n` -/
def posS (n : Fin 8192) : Fin 2048 := ⟨n.val % 2048, Nat.mod_lt _ (by decide)⟩
/-- the flattened position of (b, s) -/
def flat (b : Fin 4) (s : Fin 2048) : Fin 8192 := ⟨b.val * 2048 + s.val, by have := b.isLt; have := s.isLt; omega⟩

/-- the batch, place and slot of flattened pair `r` = (2048 b + s) · 2 + k -/
def pairB (r : Fin 16384) : Fin 4 := ⟨r.val / 4096, by have := r.isLt; omega⟩
def pairS (r : Fin 16384) : Fin 2048 := ⟨r.val / 2 % 2048, Nat.mod_lt _ (by decide)⟩
def pairK (r : Fin 16384) : Fin 2 := ⟨r.val % 2, Nat.mod_lt _ (by decide)⟩

/-! ## Mean first, then 0/1 matrix products: over blocks -/

/-- Bucket `p`, lane `d`, from per-slot rows of weights `w` and index words `ι` and the values `v`: slot 0's hits, then slot 1's. -/
def blkStates (w : SW.Idx → EReal) (ι : SW.Idx → BitVec 32) (v : SN.Idx → EReal) (p d : Fin 128) : EReal :=
  (∑ n : Fin 8192, hit (ι (ix2 0 n)) p * (w (ix2 0 n) * v (ix2 n d)))
    + ∑ n : Fin 8192, hit (ι (ix2 1 n)) p * (w (ix2 1 n) * v (ix2 n d))

/-- Position `n`, lane `d`: the bucket slot 0 hits plus the bucket slot 1 hits, times `q`. -/
def blkOut (w : SW.Idx → EReal) (ι : SW.Idx → BitVec 32) (v q : SN.Idx → EReal) (n : Fin 8192) (d : Fin 128) : EReal :=
  ((∑ p : Fin 128, hit (ι (ix2 0 n)) p * blkStates w ι v p d)
    + ∑ p : Fin 128, hit (ι (ix2 1 n)) p * blkStates w ι v p d) * q (ix2 n d)

/-! ## The same over the argument arrays -/

/-- The weight of pair (b, s, k): the mean of its 32 keys. -/
def weight (keys : SK.Idx → EReal) (b : Fin 4) (s : Fin 2048) (k : Fin 2) : EReal :=
  Ideal.div (∑ c : Fin 32, keys (ix4 b s k c)) ((32 : ℝ) : EReal)

/-- The rows of weights, (k, n) ↦ weight of (batch n, place n, k). -/
def wRows (keys : SK.Idx → EReal) : SW.Idx → EReal :=
  fun j => weight keys (posB ⟨(j 1).val, idx2_lt1 j⟩) (posS ⟨(j 1).val, idx2_lt1 j⟩) ⟨(j 0).val, idx2_lt0 j⟩
/-- The rows of index words. -/
def iRows (idx : SI.Idx → BitVec 32) : SW.Idx → BitVec 32 :=
  fun j => idx (ix3 (posB ⟨(j 1).val, idx2_lt1 j⟩) (posS ⟨(j 1).val, idx2_lt1 j⟩) ⟨(j 0).val, idx2_lt0 j⟩)
/-- An array over (b, s, d) with its positions flattened. -/
def flatten (x : SV.Idx → EReal) : SN.Idx → EReal :=
  fun j => x (ix3 (posB ⟨(j 0).val, idx2_lt0 j⟩) (posS ⟨(j 0).val, idx2_lt0 j⟩) ⟨(j 1).val, idx2_lt1 j⟩)

/-- What the mean-first program leaves at (b, s, d). -/
def kerArr (idx : SI.Idx → BitVec 32) (keys : SK.Idx → EReal) (vals q : SV.Idx → EReal) : SV.Idx → EReal :=
  fun i => blkOut (wRows keys) (iRows idx) (flatten vals) (flatten q)
    (flat ⟨(i 0).val, (i 0).isLt⟩ ⟨(i 1).val, (i 1).isLt⟩) ⟨(i 2).val, (i 2).isLt⟩

/-! ## Outer products first, then the mean, then a gather by index -/

/-- Bucket `p`, lane `d`: over the 32 keys, the sum over the pairs that point at `p` of key · value; divided by 32. -/
def refMeans (idx : SI.Idx → BitVec 32) (keys : SK.Idx → EReal) (vals : SV.Idx → EReal) (p d : Fin 128) : EReal :=
  Ideal.div (∑ c : Fin 32, ∑ r : Fin 16384,
      if (idx (ix3 (pairB r) (pairS r) (pairK r))).toInt = (p.val : ℤ)
      then keys (ix4 (pairB r) (pairS r) (pairK r) c) * vals (ix3 (pairB r) (pairS r) d) else 0)
    ((32 : ℝ) : EReal)

/-- The row a gather by the index word `w` reads: a negative word is wrapped by 128, and the result is clamped into 0 … 127. -/
def rowOf (w : BitVec 32) : Fin 128 :=
  ⟨min (if w.toInt < 0 then w + 128#32 else w).toInt.toNat 127, by omega⟩

/-- What the outer-products-first program leaves at (b, s, d). -/
def refArr (idx : SI.Idx → BitVec 32) (keys : SK.Idx → EReal) (vals q : SV.Idx → EReal) : SV.Idx → EReal :=
  fun i => (∑ k : Fin 2, refMeans idx keys vals
      (rowOf (idx (ix3 ⟨(i 0).val, (i 0).isLt⟩ ⟨(i 1).val, (i 1).isLt⟩ k))) ⟨(i 2).val, (i 2).isLt⟩) * q i

end Cert.Buckets

end
-- ==== Proof.PreFacts.lean ====
import proofs.«425066_j89300960019112_2_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

open scoped BigOperators

namespace Cert.Buckets.Pre

open Idealize.ShloMosaic Idealize.ShloMosaic.ValueIdx

variable [Cert.Pre_finite_inputs.Facts]

/-- The shape of a scalar has one index. -/
instance : Subsingleton Cert.Pre_finite_inputs.S_.Idx := ⟨fun a b => funext fun d => d.elim0⟩

/-- The word 0x7F800000 is +∞. -/
private theorem ofBits_inf : Ideal.ofBits .f32 0x7F800000#32 = (⊤ : EReal) := by
  simp [Ideal.ofBits, Ideal.ieee]

/-- |x| < +∞ says x is neither infinity: x is a real number. -/
private theorem real_of_abs_lt (x : EReal)
    (h : Ideal.cmp .olt (max x (-x)) (Ideal.ofBits .f32 0x7F800000#32) = 1#1) : ∃ r : ℝ, x = (r : EReal) := by
  rw [ofBits_inf] at h
  have h' : max x (-x) < ⊤ := by
    have h2 : BitVec.ofBool (decide (max x (-x) < (⊤ : EReal))) = 1#1 := h
    rw [StableHlo.Predicate.ofBool_eq_one_iff] at h2
    exact of_decide_eq_true h2
  induction x using EReal.rec with
  | bot => simp at h'
  | coe r => exact ⟨r, rfl⟩
  | top => simp at h'

/-- 0 ≤ w signed, read off the comparison's bit. -/
private theorem nonneg_of_sge (w : BitVec 32) (h : IntOp.cmpi .sge w 0#32 = 1#1) : 0 ≤ w.toInt := by
  have h2 : BitVec.ofBool ((0#32 : BitVec 32).sle w) = 1#1 := h
  rw [StableHlo.Predicate.ofBool_eq_one_iff] at h2
  have h3 : (0#32 : BitVec 32).toInt ≤ w.toInt := of_decide_eq_true h2
  simpa using h3

/-- w < 128 signed, read off the comparison's bit. -/
private theorem lt_of_slt (w : BitVec 32) (h : IntOp.cmpi .slt w 128#32 = 1#1) : w.toInt < 128 := by
  have h2 : BitVec.ofBool (w.slt (128#32 : BitVec 32)) = 1#1 := h
  rw [StableHlo.Predicate.ofBool_eq_one_iff] at h2
  have h3 : w.toInt < (128#32 : BitVec 32).toInt := of_decide_eq_true h2
  have e : (128#32 : BitVec 32).toInt = 128 := by decide
  rwa [e] at h3

theorem of_pre (x0 : IVec Cert.Pre_finite_inputs.S4x2048x2 32) (x1 : FVec Ideal Cert.Pre_finite_inputs.S4x2048x2x32 .f32)
    (x2 x3 : FVec Ideal Cert.Pre_finite_inputs.S4x2048x128 .f32)
    (h : Cert.Pre_finite_inputs.fn (F := Ideal) x0 x1 x2 x3 = fun _ => 1#1) :
    (∀ i, ∃ r : ℝ, x1 i = (r : EReal)) ∧ (∀ i, ∃ r : ℝ, x2 i = (r : EReal)) ∧ (∀ i, ∃ r : ℝ, x3 i = (r : EReal))
      ∧ ∀ i, 0 ≤ (x0 i).toInt ∧ (x0 i).toInt < 128 := by
  have h0 := congrFun h ValueIdx.ix0
  dsimp only [Cert.Pre_finite_inputs.fn, Cert.Pre_finite_inputs.fn_part1] at h0
  simp only [andi, IntOp.andi_eq_one] at h0
  obtain ⟨⟨⟨⟨h1, h2⟩, h3⟩, h4⟩, h5⟩ := h0
  refine ⟨fun i => ?_, fun i => ?_, fun i => ?_, fun i => ⟨?_, ?_⟩⟩
  · exact real_of_abs_lt (x1 i) (Host.reduce_andi_all _ _ _ _ _ h1 i)
  · exact real_of_abs_lt (x2 i) (Host.reduce_andi_all _ _ _ _ _ h2 i)
  · exact real_of_abs_lt (x3 i) (Host.reduce_andi_all _ _ _ _ _ h3 i)
  · exact nonneg_of_sge (x0 i) (Host.reduce_andi_all _ _ _ _ _ h4 i)
  · exact lt_of_slt (x0 i) (Host.reduce_andi_all _ _ _ _ _ h5 i)

end Cert.Buckets.Pre

end
-- ==== Proof.Algebra.lean ====
import proofs.«425066_j89300960019112_2_alg».proof.Proof.Spec

noncomputable section

open scoped BigOperators

namespace Cert.Buckets

open Idealize.ShloMosaic Idealize.ShloMosaic.ValueIdx

/-! ## Finite sums of real numbers inside the extended reals -/

/-- The inclusion of the reals commutes with a finite sum. -/
private theorem coe_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A 0/1 entry times a real number is that number or zero. -/
private theorem hit_mul_coe (w : BitVec 32) (p : Fin 128) (x : ℝ) :
    hit w p * (x : EReal) = ((if w.toInt = (p.val : ℤ) then x else 0 : ℝ) : EReal) := by
  unfold hit; split_ifs <;> simp

/-- A real number or zero, chosen by a condition. -/
private theorem ite_coe (c : Prop) [Decidable c] (x : ℝ) :
    (if c then (x : EReal) else 0) = ((if c then x else 0 : ℝ) : EReal) := by
  split_ifs <;> simp

/-! ## Flattened positions and pairs are the product of their coordinates -/

private theorem posB_flat (b : Fin 4) (s : Fin 2048) : posB (flat b s) = b := by
  apply Fin.ext; simp only [posB, flat]; omega
private theorem posS_flat (b : Fin 4) (s : Fin 2048) : posS (flat b s) = s := by
  apply Fin.ext; simp only [posS, flat]; omega

/-- n ↦ (batch, place), with inverse (b, s) ↦ 2048 b + s. -/
private def posEquiv : Fin 8192 ≃ Fin 4 × Fin 2048 where
  toFun n := (posB n, posS n)
  invFun x := flat x.1 x.2
  left_inv n := by apply Fin.ext; simp only [posB, posS, flat]; omega
  right_inv x := by
    obtain ⟨b, s⟩ := x
    simp only [posB_flat, posS_flat]

/-- A sum over flattened positions is the double sum over batch and place. -/
private theorem sum_pos {M : Type} [AddCommMonoid M] (g : Fin 4 → Fin 2048 → M) :
    ∑ n : Fin 8192, g (posB n) (posS n) = ∑ b : Fin 4, ∑ s : Fin 2048, g b s := by
  rw [← Fintype.sum_prod_type' g]
  exact Fintype.sum_equiv posEquiv _ _ (fun n => rfl)

/-- r ↦ (batch, place, slot), with inverse (b, s, k) ↦ (2048 b + s) · 2 + k. -/
private def pairEquiv : Fin 16384 ≃ Fin 4 × Fin 2048 × Fin 2 where
  toFun r := (pairB r, pairS r, pairK r)
  invFun x := ⟨(x.1.val * 2048 + x.2.1.val) * 2 + x.2.2.val, by
    have := x.1.isLt; have := x.2.1.isLt; have := x.2.2.isLt; omega⟩
  left_inv r := by apply Fin.ext; simp only [pairB, pairS, pairK]; omega
  right_inv x := by
    obtain ⟨b, s, k⟩ := x
    have := b.isLt; have := s.isLt; have := k.isLt
    refine Prod.ext (Fin.ext ?_) (Prod.ext (Fin.ext ?_) (Fin.ext ?_)) <;> simp only [pairB, pairS, pairK] <;> omega

/-- A sum over flattened pairs is the triple sum over batch, place and slot. -/
private theorem sum_pair {M : Type} [AddCommMonoid M] (h : Fin 4 → Fin 2048 → Fin 2 → M) :
    ∑ r : Fin 16384, h (pairB r) (pairS r) (pairK r) = ∑ b : Fin 4, ∑ s : Fin 2048, ∑ k : Fin 2, h b s k := by
  have e := Fintype.sum_equiv pairEquiv (fun r => h (pairB r) (pairS r) (pairK r)) (fun x => h x.1 x.2.1 x.2.2) (fun r => rfl)
  rw [e, Fintype.sum_prod_type]
  refine Finset.sum_congr rfl fun b _ => ?_
  rw [Fintype.sum_prod_type]

/-! ## The row of a 0/1 matrix picks one entry -/

private theorem rowOf_val (w : BitVec 32) (h0 : 0 ≤ w.toInt) (h1 : w.toInt < 128) :
    ((rowOf w).val : ℤ) = w.toInt := by
  simp only [rowOf, if_neg (not_lt.mpr h0)]
  omega

/-- For an index word that is a bucket number, the 0/1 row times a column is the column's entry at that bucket. -/
private theorem sum_hit (w : BitVec 32) (h0 : 0 ≤ w.toInt) (h1 : w.toInt < 128) (F : Fin 128 → EReal) :
    ∑ p : Fin 128, hit w p * F p = F (rowOf w) := by
  have hr := rowOf_val w h0 h1
  rw [Finset.sum_eq_single (rowOf w)]
  · rw [hit, if_pos hr.symm, one_mul]
  · intro p _ hp
    rw [hit, if_neg, zero_mul]
    intro h
    apply hp
    apply Fin.ext
    have : ((p.val : ℤ)) = ((rowOf w).val : ℤ) := by rw [hr, h]
    exact_mod_cast this
  · intro h; exact absurd (Finset.mem_univ _) h

/-! ## The identity over the reals -/

/-- Mean of the keys first, then the sum over the pairs that satisfy P; against the sum over keys and pairs, then the mean:
    the product distributes over the sums. -/
private theorem real_core (P : Fin 4 → Fin 2048 → Fin 2 → Prop) [∀ b s k, Decidable (P b s k)]
    (K : Fin 4 → Fin 2048 → Fin 2 → Fin 32 → ℝ) (V : Fin 4 → Fin 2048 → ℝ) :
    (∑ b : Fin 4, ∑ s : Fin 2048, if P b s 0 then (∑ c : Fin 32, K b s 0 c) * (1 / 32) * V b s else 0)
      + (∑ b : Fin 4, ∑ s : Fin 2048, if P b s 1 then (∑ c : Fin 32, K b s 1 c) * (1 / 32) * V b s else 0)
    = (∑ c : Fin 32, ∑ b : Fin 4, ∑ s : Fin 2048, ∑ k : Fin 2, if P b s k then K b s k c * V b s else 0) * (1 / 32) := by
  rw [← Finset.sum_add_distrib]
  conv_rhs => rw [Finset.sum_comm, Finset.sum_mul]
  refine Finset.sum_congr rfl fun b _ => ?_
  rw [← Finset.sum_add_distrib]
  conv_rhs => rw [Finset.sum_comm, Finset.sum_mul]
  refine Finset.sum_congr rfl fun s _ => ?_
  conv_rhs => rw [Finset.sum_comm, Fin.sum_univ_two]
  by_cases h0 : P b s 0 <;> by_cases h1 : P b s 1 <;>
    simp only [h0, h1, if_true, if_false, Finset.sum_const_zero, ← Finset.sum_mul, add_zero, zero_add, zero_mul] <;> ring

/-! ## The two bucket tables agree -/

/-- The mean of 32 real keys is a real number: their sum times 1/32. -/
private theorem weight_coe (kr : SK.Idx → ℝ) (b : Fin 4) (s : Fin 2048) (k : Fin 2) :
    weight (fun i => (kr i : EReal)) b s k
      = (((∑ c : Fin 32, kr (ix4 b s k c)) * (1 / 32) : ℝ) : EReal) := by
  rw [weight, Ideal.div_coe (by norm_num : (32 : ℝ) ≠ 0), ← coe_sum, ← EReal.coe_mul]

/-- Bucket p, lane d: weights scattered by the two 0/1 matrix products, against outer products summed over pairs and keys and
    then divided by 32. Both are sums over batch, place and slot of real numbers, and the real identity closes it. -/
private theorem states_eq (idx : SI.Idx → BitVec 32) (kr : SK.Idx → ℝ) (vr : SV.Idx → ℝ) (p d : Fin 128) :
    blkStates (wRows fun i => (kr i : EReal)) (iRows idx) (flatten fun i => (vr i : EReal)) p d
      = refMeans idx (fun i => (kr i : EReal)) (fun i => (vr i : EReal)) p d := by
  -- one slot's 0/1 product, over batch and place, as one real number
  have hL : ∀ k : Fin 2,
      (∑ n : Fin 8192, hit (iRows idx (ix2 k n)) p
          * (wRows (fun i => (kr i : EReal)) (ix2 k n) * flatten (fun i => (vr i : EReal)) (ix2 n d)))
        = ((∑ b : Fin 4, ∑ s : Fin 2048, if (idx (ix3 b s k)).toInt = (p.val : ℤ)
              then (∑ c : Fin 32, kr (ix4 b s k c)) * (1 / 32) * vr (ix3 b s d) else 0 : ℝ) : EReal) := by
    intro k
    refine (sum_pos (fun b s => hit (idx (ix3 b s k)) p
      * (weight (fun i => (kr i : EReal)) b s k * ((vr (ix3 b s d) : ℝ) : EReal)))).trans ?_
    simp only [weight_coe, ← EReal.coe_mul, hit_mul_coe, ← coe_sum]
  -- the sum over keys and flattened pairs, over batch, place and slot, as one real number
  have hR : (∑ c : Fin 32, ∑ r : Fin 16384,
        if (idx (ix3 (pairB r) (pairS r) (pairK r))).toInt = (p.val : ℤ)
        then ((kr (ix4 (pairB r) (pairS r) (pairK r) c) : ℝ) : EReal) * ((vr (ix3 (pairB r) (pairS r) d) : ℝ) : EReal) else 0)
      = ((∑ c : Fin 32, ∑ b : Fin 4, ∑ s : Fin 2048, ∑ k : Fin 2,
            if (idx (ix3 b s k)).toInt = (p.val : ℤ) then kr (ix4 b s k c) * vr (ix3 b s d) else 0 : ℝ) : EReal) := by
    rw [coe_sum]
    refine Finset.sum_congr rfl fun c _ => ?_
    refine (sum_pair (fun b s k => if (idx (ix3 b s k)).toInt = (p.val : ℤ)
      then ((kr (ix4 b s k c) : ℝ) : EReal) * ((vr (ix3 b s d) : ℝ) : EReal) else 0)).trans ?_
    simp only [← EReal.coe_mul, ite_coe, ← coe_sum]
  unfold blkStates refMeans
  rw [hL 0, hL 1, hR, Ideal.div_coe (by norm_num : (32 : ℝ) ≠ 0), ← EReal.coe_add, ← EReal.coe_mul]
  exact congrArg (fun x : ℝ => (x : EReal))
    (real_core (fun b s k => (idx (ix3 b s k)).toInt = (p.val : ℤ)) (fun b s k c => kr (ix4 b s k c))
      (fun b s => vr (ix3 b s d)))

/-! ## The results agree -/

/-- At (b, s, d): each 0/1 row picks the bucket its slot points at, the tables agree, and the sum over the two slots is the
    sum of the two buckets. -/
private theorem at_ix3 (idx : SI.Idx → BitVec 32) (kr : SK.Idx → ℝ) (vr : SV.Idx → ℝ) (q : SV.Idx → EReal)
    (hi : ∀ i, 0 ≤ (idx i).toInt ∧ (idx i).toInt < 128) (b : Fin 4) (s : Fin 2048) (d : Fin 128) :
    refArr idx (fun i => (kr i : EReal)) (fun i => (vr i : EReal)) q (ix3 b s d)
      = kerArr idx (fun i => (kr i : EReal)) (fun i => (vr i : EReal)) q (ix3 b s d) := by
  show (∑ k : Fin 2, refMeans idx (fun i => (kr i : EReal)) (fun i => (vr i : EReal)) (rowOf (idx (ix3 b s k))) d)
        * q (ix3 b s d)
      = ((∑ p : Fin 128, hit (idx (ix3 (posB (flat b s)) (posS (flat b s)) 0)) p
            * blkStates (wRows fun i => (kr i : EReal)) (iRows idx) (flatten fun i => (vr i : EReal)) p d)
          + ∑ p : Fin 128, hit (idx (ix3 (posB (flat b s)) (posS (flat b s)) 1)) p
            * blkStates (wRows fun i => (kr i : EReal)) (iRows idx) (flatten fun i => (vr i : EReal)) p d)
        * q (ix3 (posB (flat b s)) (posS (flat b s)) d)
  rw [posB_flat, posS_flat,
    sum_hit (idx (ix3 b s 0)) (hi _).1 (hi _).2
      (fun p => blkStates (wRows fun i => (kr i : EReal)) (iRows idx) (flatten fun i => (vr i : EReal)) p d),
    sum_hit (idx (ix3 b s 1)) (hi _).1 (hi _).2
      (fun p => blkStates (wRows fun i => (kr i : EReal)) (iRows idx) (flatten fun i => (vr i : EReal)) p d),
    states_eq, states_eq, Fin.sum_univ_two]

theorem refArr_eq_kerArr (idx : SI.Idx → BitVec 32) (keys : SK.Idx → EReal) (vals q : SV.Idx → EReal)
    (hk : ∀ i, ∃ r : ℝ, keys i = (r : EReal)) (hv : ∀ i, ∃ r : ℝ, vals i = (r : EReal))
    (hi : ∀ i, 0 ≤ (idx i).toInt ∧ (idx i).toInt < 128) :
    refArr idx keys vals q = kerArr idx keys vals q := by
  choose kr hkr using hk
  choose vr hvr using hv
  obtain rfl : keys = fun i => (kr i : EReal) := funext hkr
  obtain rfl : vals = fun i => (vr i : EReal) := funext hvr
  funext i
  rw [eq_ix3 i]
  exact at_ix3 idx kr vr q hi (i 0) (i 1) (i 2)

end Cert.Buckets

end
-- ==== Proof.RefScatter.lean ====
import proofs.«425066_j89300960019112_2_alg».proof.Proof.Gen.ReferenceIdeal.Read
import proofs.«425066_j89300960019112_2_alg».proof.Proof.Spec

noncomputable section

open scoped BigOperators

namespace Cert.Buckets.Ref

open Idealize.ShloMosaic Idealize.ShloMosaic.ValueIdx Cert.ReferenceIdeal Cert.ReferenceIdeal.Gen Cert.ReferenceIdeal.Read Cert.Buckets

/-! ## Rank-3 indices as triples of coordinates -/

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun t := ix3 t.1 t.2.1 t.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Where an update lands

The scatter's dimension numbers: the operand is (bucket, key, lane), the updates are (pair, key, lane); the index
vector has one component, the bucket; the update's key and lane axes are window axes. -/

private abbrev D := scatter_S128x32x128_S16384x1_S16384x32x128_12_0_0_1

/-- On the bucket axis the window starts at the pair's index word, read signed. -/
private theorem start0 (j : S16384x32x128.Idx) (idx : IVec S16384x1 32) :
    D.start j idx 0 = (idx (ix2 (j 0) 0)).toInt := by
  unfold ScatterDims.start
  rw [dif_pos (by decide)]
  refine congrArg (fun t => (idx t).toInt) (funext fun b => ?_)
  match b with
  | ⟨0, _⟩ =>
    unfold ScatterDims.siIdx
    refine (dif_neg (show ¬ (0:Nat) = 1 by decide)).trans ?_
    unfold ScatterDims.siCoord
    apply Fin.ext
    rfl
  | ⟨1, _⟩ =>
    unfold ScatterDims.siIdx
    refine (dif_pos (show (1:Nat) = 1 from rfl)).trans ?_
    apply Fin.ext
    rfl

/-- On the key and lane axes the window starts at 0. -/
private theorem start1 (j : S16384x32x128.Idx) (idx : IVec S16384x1 32) : D.start j idx 1 = 0 := by
  unfold ScatterDims.start
  rw [dif_neg (by decide)]
private theorem start2 (j : S16384x32x128.Idx) (idx : IVec S16384x1 32) : D.start j idx 2 = 0 := by
  unfold ScatterDims.start
  rw [dif_neg (by decide)]

/-- The window coordinate is 0 on the bucket axis and the update's own key and lane on the other two. -/
private theorem window0 (j : S16384x32x128.Idx) : D.window j 0 = 0 := by
  unfold ScatterDims.window
  rw [dif_neg (by decide)]
private theorem window1 (j : S16384x32x128.Idx) : D.window j 1 = (j 1).val := by
  unfold ScatterDims.window
  rw [dif_pos (by decide)]
  rfl
private theorem window2 (j : S16384x32x128.Idx) : D.window j 2 = (j 2).val := by
  unfold ScatterDims.window
  rw [dif_pos (by decide)]
  rfl

/-- Update (r, c', d') lands on (p, c, d) exactly when pair r's index word is the number p, c' = c and d' = d. -/
private theorem lands_iff (j : S16384x32x128.Idx) (idx : IVec S16384x1 32) (p : Fin 128) (c : Fin 32) (d : Fin 128) :
    D.resultIdx? j idx = some (ix3 p c d) ↔ ((idx (ix2 (j 0) 0)).toInt = (p.val : ℤ) ∧ j 1 = c ∧ j 2 = d) := by
  unfold ScatterDims.resultIdx?
  constructor
  · intro h
    by_cases hh : ∀ a, 0 ≤ D.start j idx a + D.window j a ∧ D.start j idx a + D.window j a < S128x32x128.size a
    · rw [dif_pos hh] at h
      have h' := Option.some.inj h
      have e0 : (D.start j idx 0 + (D.window j 0 : ℤ)).toNat = p.val := congrArg Fin.val (congrFun h' 0)
      have e1 : (D.start j idx 1 + (D.window j 1 : ℤ)).toNat = c.val := congrArg Fin.val (congrFun h' 1)
      have e2 : (D.start j idx 2 + (D.window j 2 : ℤ)).toNat = d.val := congrArg Fin.val (congrFun h' 2)
      have g0 := (hh 0).1
      rw [start0, window0] at e0 g0
      rw [start1, window1] at e1
      rw [start2, window2] at e2
      refine ⟨by omega, Fin.ext (by omega), Fin.ext (by omega)⟩
    · rw [dif_neg hh] at h
      cases h
  · rintro ⟨h0, h1, h2⟩
    have hp := p.isLt
    have hc : (j 1).val < 32 := (j 1).isLt
    have hd : (j 2).val < 128 := (j 2).isLt
    have hh : ∀ a, 0 ≤ D.start j idx a + D.window j a ∧ D.start j idx a + D.window j a < S128x32x128.size a := by
      intro a
      match a with
      | ⟨0, _⟩ =>
        show 0 ≤ D.start j idx 0 + (D.window j 0 : ℤ) ∧ D.start j idx 0 + (D.window j 0 : ℤ) < (128 : ℕ)
        rw [start0, window0, h0]; omega
      | ⟨1, _⟩ =>
        show 0 ≤ D.start j idx 1 + (D.window j 1 : ℤ) ∧ D.start j idx 1 + (D.window j 1 : ℤ) < (32 : ℕ)
        rw [start1, window1]; omega
      | ⟨2, _⟩ =>
        show 0 ≤ D.start j idx 2 + (D.window j 2 : ℤ) ∧ D.start j idx 2 + (D.window j 2 : ℤ) < (128 : ℕ)
        rw [start2, window2]; omega
    rw [dif_pos hh]
    refine congrArg some (funext fun a => ?_)
    match a with
    | ⟨0, _⟩ =>
      apply Fin.ext
      show (D.start j idx 0 + (D.window j 0 : ℤ)).toNat = p.val
      rw [start0, window0, h0]; omega
    | ⟨1, _⟩ =>
      apply Fin.ext
      show (D.start j idx 1 + (D.window j 1 : ℤ)).toNat = c.val
      rw [start1, window1, h1]; omega
    | ⟨2, _⟩ =>
      apply Fin.ext
      show (D.start j idx 2 + (D.window j 2 : ℤ)).toNat = d.val
      rw [start2, window2, h2]; omega

/-- The same at an update index given by its coordinates. -/
private theorem lands_ix3_iff (r : Fin 16384) (c' : Fin 32) (d' : Fin 128) (idx : IVec S16384x1 32)
    (p : Fin 128) (c : Fin 32) (d : Fin 128) :
    D.resultIdx? (ix3 r c' d') idx = some (ix3 p c d) ↔ ((idx (ix2 r 0)).toInt = (p.val : ℤ) ∧ c' = c ∧ d' = d) :=
  lands_iff (ix3 r c' d') idx p c d

/-! ## The operands at an index -/

/-- Pair r's index word is the word at (batch, place, slot) of r. -/
private theorem word_read (x0 : (⟨S4x2048x2, .i32⟩ : BufTy).Contents (Elt Ideal)) (r : Fin 16384) :
    val_main_v8 (F := Ideal) x0 (ix2 r 0) = x0 (ix3 (pairB r) (pairS r) (pairK r)) := by
  rw [val_main_v8_apply, val_main_v6_apply]
  refine congrArg x0 (funext fun a => ?_)
  match a with
  | ⟨0, _⟩ => exact Fin.ext rfl
  | ⟨1, _⟩ => exact Fin.ext rfl
  | ⟨2, _⟩ => exact Fin.ext rfl

/-- Update (r, c, d) is key c of pair r times lane d of r's position. -/
private theorem upd_read (x1 : (⟨S4x2048x2x32, .f32⟩ : BufTy).Contents (Elt Ideal)) (x2 : (⟨S4x2048x128, .f32⟩ : BufTy).Contents (Elt Ideal))
    (r : Fin 16384) (c : Fin 32) (d : Fin 128) :
    val_main_v5 (F := Ideal) x1 x2 (ix3 r c d)
      = x1 (ix4 (pairB r) (pairS r) (pairK r) c) * x2 (ix3 (pairB r) (pairS r) d) := by
  have hr := r.isLt
  have hc := c.isLt
  have hd := d.isLt
  rw [val_main_v5_apply, val_main_v4_apply, val_main_v2_apply, val_main_v0_apply, val_main_v3_apply, val_main_v1_apply]
  show x1 _ * x2 _ = _
  refine congrArg₂ (· * ·) (congrArg x1 (funext fun a => ?_)) (congrArg x2 (funext fun a => ?_))
  · match a with
    | ⟨0, _⟩ => exact Fin.ext (show ((r.val * 32 + c.val) * 128 + d.val) / 16777216 = r.val / 4096 by omega)
    | ⟨1, _⟩ => exact Fin.ext (show ((r.val * 32 + c.val) * 128 + d.val) / 8192 % 2048 = r.val / 2 % 2048 by omega)
    | ⟨2, _⟩ => exact Fin.ext (show ((r.val * 32 + c.val) * 128 + d.val) / 4096 % 2 = r.val % 2 by omega)
    | ⟨3, _⟩ => exact Fin.ext (show ((r.val * 32 + c.val) * 128 + d.val) / 128 % 32 = c.val by omega)
  · match a with
    | ⟨0, _⟩ => exact Fin.ext (show ((r.val * 32 + c.val) * 128 + d.val) / 16777216 = r.val / 4096 by omega)
    | ⟨1, _⟩ => exact Fin.ext (show ((r.val * 32 + c.val) * 128 + d.val) / 8192 % 2048 = r.val / 2 % 2048 by omega)
    | ⟨2, _⟩ => exact Fin.ext (show ((r.val * 32 + c.val) * 128 + d.val) % 128 = d.val by omega)

/-- The reference's scatter-add at (p, c, d): the operand is the zero array, and of the updates (r, c', d') exactly
    those with c' = c, d' = d and pair r's index word equal to p land there; so the element is the sum over the pairs
    r that point at p of key c of r times lane d of r's position. -/
theorem scatter_read (x0 : (⟨S4x2048x2, .i32⟩ : BufTy).Contents (Elt Ideal)) (x1 : (⟨S4x2048x2x32, .f32⟩ : BufTy).Contents (Elt Ideal)) (x2 : (⟨S4x2048x128, .f32⟩ : BufTy).Contents (Elt Ideal))
    (p : Fin 128) (c : Fin 32) (d : Fin 128) :
    val_main_v9 (F := Ideal) x0 x1 x2 (ix3 p c d)
      = ∑ r : Fin 16384, if (x0 (ix3 (pairB r) (pairS r) (pairK r))).toInt = (p.val : ℤ)
          then x1 (ix4 (pairB r) (pairS r) (pairK r) c) * x2 (ix3 (pairB r) (pairS r) d) else 0 := by
  unfold val_main_v9
  simp only [Host.scatterAdd, Ideal.hostScatterAdd_def]
  unfold Ideal.hostScatterAdd
  have hz : val_main_v7 (F := Ideal) (ix3 p c d) = 0 := by
    rw [val_main_v7_apply, val_main_cst_apply]
    exact Ideal.ofBits_zero_f32
  rw [hz, zero_add, Finset.sum_filter, sum_idx3]
  refine Finset.sum_congr rfl fun r _ => ?_
  simp only [lands_ix3_iff]
  rw [Finset.sum_eq_single c, Finset.sum_eq_single d]
  · rw [word_read, upd_read]
    exact if_congr (by simp) rfl rfl
  · intro d' _ hd
    exact if_neg fun h => hd h.2.2
  · intro h
    exact absurd (Finset.mem_univ _) h
  · intro c' _ hc
    exact Finset.sum_eq_zero fun d' _ => if_neg fun h => hc h.2.1
  · intro h
    exact absurd (Finset.mem_univ _) h

end Cert.Buckets.Ref

end
-- ==== Proof.RefValue.lean ====
import proofs.«425066_j89300960019112_2_alg».proof.Proof.Gen.ReferenceIdeal.Run
import proofs.«425066_j89300960019112_2_alg».proof.Proof.Gen.ReferenceIdeal.Read
import proofs.«425066_j89300960019112_2_alg».proof.Proof.RefScatter
import proofs.«425066_j89300960019112_2_alg».proof.Proof.Spec

noncomputable section

open scoped BigOperators

namespace Cert.Buckets.Ref

open Idealize.ShloMosaic Idealize.ShloMosaic.ValueIdx Cert.ReferenceIdeal Cert.ReferenceIdeal.Gen Cert.ReferenceIdeal.Read Cert.Buckets

/-- The start index word of a gather by `w`: the signed comparison with 0 selects `w + 128` for a negative word, `w` otherwise. -/
private theorem wrap_word (w : BitVec 32) :
    Scalar.select (IntOp.cmpi .slt w 0#32) (IntOp.addi w 128#32) w = if w.toInt < 0 then w + 128#32 else w := by
  unfold Scalar.select IntOp.cmpi IntOp.addi
  by_cases h : w.toInt < 0
  · have hs : w.slt 0#32 = true := by simp [BitVec.slt, h]
    rw [hs, if_pos h]; rfl
  · have hs : w.slt 0#32 = false := by simp [BitVec.slt, h]
    rw [hs, if_neg h]; rfl

/-- The start index table read at (b, s, k, 0): the wrapped word of the index at (b, s, k). -/
private theorem start_word (x0 : (⟨S4x2048x2, .i32⟩ : BufTy).Contents (Elt Ideal)) (b : Fin 4) (s : Fin 2048) (k : Fin 2) :
    val_main_v18 (F := Ideal) x0 (ix4 b s k (0 : Fin 1))
      = if (x0 (ix3 b s k)).toInt < 0 then x0 (ix3 b s k) + 128#32 else x0 (ix3 b s k) := by
  rw [val_main_v18_apply]
  have hi : idx_main_v18 (ix4 b s k (0 : Fin 1)) = ix3 b s k := by
    funext a; match a with | ⟨0, _⟩ => rfl | ⟨1, _⟩ => rfl | ⟨2, _⟩ => rfl
  rw [hi, val_main_v17_apply, val_main_v14_apply, val_main_v16_apply, val_main_v13_apply, val_main_v15_apply,
    val_main_c_apply, val_main_c_2_apply]
  exact wrap_word _

/-- The gather read at (b, s, k, d): on the bucket axis the start index is the wrapped word read signed and clamped into
    0 … 127 (the one collapsed, start-indexed axis; no batching axes), on the lane axis it is the offset coordinate d. -/
theorem gather_read (x0 : (⟨S4x2048x2, .i32⟩ : BufTy).Contents (Elt Ideal)) (x1 : (⟨S4x2048x2x32, .f32⟩ : BufTy).Contents (Elt Ideal)) (x2 : (⟨S4x2048x128, .f32⟩ : BufTy).Contents (Elt Ideal))
    (b : Fin 4) (s : Fin 2048) (k : Fin 2) (d : Fin 128) :
    val_main_v19 (F := Ideal) x0 x1 x2 (ix4 b s k d)
      = val_main_v12 (F := Ideal) x0 x1 x2 (ix2 (rowOf (x0 (ix3 b s k))) d) := by
  unfold val_main_v19 Host.gather
  refine congrArg (val_main_v12 (F := Ideal) x0 x1 x2) ?_
  funext a
  refine Fin.ext ?_
  match a with
  | ⟨0, _⟩ =>
    show gather_S128x128_S4x2048x2x1_S4x2048x2x128_3_0_n_n_0_3_1128.start (ix4 b s k d) (val_main_v18 (F := Ideal) x0) 0 + gather_S128x128_S4x2048x2x1_S4x2048x2x128_3_0_n_n_0_3_1128.batchCoord (ix4 b s k d) 0
      + gather_S128x128_S4x2048x2x1_S4x2048x2x128_3_0_n_n_0_3_1128.offCoord (ix4 b s k d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S128x128_S4x2048x2x1_S4x2048x2x128_3_0_n_n_0_3_1128.startIndexMap from List.mem_singleton.mpr rfl)]
    have hsi : gather_S128x128_S4x2048x2x1_S4x2048x2x128_3_0_n_n_0_3_1128.siIdx (ix4 b s k d)
        ⟨List.idxOf (0 : Fin 2) gather_S128x128_S4x2048x2x1_S4x2048x2x128_3_0_n_n_0_3_1128.startIndexMap, List.idxOf_lt_length_iff.2 (List.mem_singleton.mpr rfl)⟩
        = ix4 b s k (0 : Fin 1) := by
      funext c; refine Fin.ext ?_
      match c with
      | ⟨0, _⟩ => rfl
      | ⟨1, _⟩ => rfl
      | ⟨2, _⟩ => rfl
      | ⟨3, _⟩ => rfl
    rw [hsi, start_word]
    rfl
  | ⟨1, _⟩ =>
    show gather_S128x128_S4x2048x2x1_S4x2048x2x128_3_0_n_n_0_3_1128.start (ix4 b s k d) (val_main_v18 (F := Ideal) x0) 1 + gather_S128x128_S4x2048x2x1_S4x2048x2x128_3_0_n_n_0_3_1128.batchCoord (ix4 b s k d) 1
      + gather_S128x128_S4x2048x2x1_S4x2048x2x128_3_0_n_n_0_3_1128.offCoord (ix4 b s k d) 1 = _
    rw [GatherDims.batchCoord_eq_zero _ _ _ List.not_mem_nil]
    unfold GatherDims.start
    rw [dif_neg (show (1 : Fin 2) ∉ gather_S128x128_S4x2048x2x1_S4x2048x2x128_3_0_n_n_0_3_1128.startIndexMap by decide)]
    simp only [Nat.add_zero, Nat.zero_add]
    rfl

/-- Bucket p, lane d of the table: 0 plus the sum over the 32 keys of the scattered sums, divided by the real number 32. -/
theorem means_read (x0 : (⟨S4x2048x2, .i32⟩ : BufTy).Contents (Elt Ideal)) (x1 : (⟨S4x2048x2x32, .f32⟩ : BufTy).Contents (Elt Ideal)) (x2 : (⟨S4x2048x128, .f32⟩ : BufTy).Contents (Elt Ideal))
    (p d : Fin 128) :
    val_main_v12 (F := Ideal) x0 x1 x2 (ix2 p d) = refMeans x0 x1 x2 p d := by
  rw [val_main_v12_apply, Ideal.hostDivf_def, val_main_v11_apply, val_main_cst_1_apply, Ideal.ofBits_def, ofBits_32,
    val_main_v10_apply, val_main_cst_0_apply, Ideal.ofBits_def, Ideal.ofBits_zero_f32, zero_add]
  unfold refMeans
  refine congrArg (fun t => Ideal.div t ((32 : ℝ) : EReal)) (Finset.sum_congr rfl fun c _ => ?_)
  have hi : idx_main_v10 (ix2 p d) c = ix3 p c d := by
    funext a; match a with | ⟨0, _⟩ => rfl | ⟨1, _⟩ => rfl | ⟨2, _⟩ => rfl
  rw [hi]
  exact scatter_read x0 x1 x2 p c d

/-- The result at (b, s, d): 0 plus the sum over the two slots of the table rows their index words read, times q. -/
theorem ref_value (x0 : (⟨S4x2048x2, .i32⟩ : BufTy).Contents (Elt Ideal)) (x1 : (⟨S4x2048x2x32, .f32⟩ : BufTy).Contents (Elt Ideal)) (x2 : (⟨S4x2048x128, .f32⟩ : BufTy).Contents (Elt Ideal)) (x3 : (⟨S4x2048x128, .f32⟩ : BufTy).Contents (Elt Ideal)) :
    val_main_v21 (F := Ideal) x0 x1 x2 x3 = refArr x0 x1 x2 x3 := by
  funext i
  obtain ⟨b, s, d, rfl⟩ : ∃ (b : Fin 4) (s : Fin 2048) (d : Fin 128), i = ix3 b s d := ⟨i 0, i 1, i 2, eq_ix3 i⟩
  rw [val_main_v21_apply, Ideal.mulf_def, val_main_v20_apply, val_main_cst_3_apply, Ideal.ofBits_def,
    Ideal.ofBits_zero_f32, zero_add]
  unfold refArr
  refine congrArg (· * x3 (ix3 b s d)) (Finset.sum_congr rfl fun k _ => ?_)
  have hi : idx_main_v20 (ix3 b s d) k = ix4 b s k d := by
    funext a; match a with | ⟨0, _⟩ => rfl | ⟨1, _⟩ => rfl | ⟨2, _⟩ => rfl | ⟨3, _⟩ => rfl
  rw [hi, gather_read, means_read]

end Cert.Buckets.Ref

end
-- ==== Proof.OneHot.lean ====
import proofs.«425066_j89300960019112_2_alg».proof.Proof.Gen.KernelIdeal.Skeleton
import proofs.«425066_j89300960019112_2_alg».proof.Proof.Spec
import Idealize.ShloMosaic.Lib.Pipeline.Value
import Idealize.ShloMosaic.PureOps.Ideal.Laws

noncomputable section

open scoped BigOperators

namespace Cert.Buckets.Body

open Idealize.ShloMosaic Idealize.ShloMosaic.ValueIdx Cert.KernelIdeal Cert.KernelIdeal.Gen Cert.Buckets

/-- A 32-bit word is the word of a bucket number p < 128 exactly when its signed value is p. -/
private theorem word_eq_ofNat_iff (w : BitVec 32) (p : Fin 128) :
    w = BitVec.ofNat 32 p.val ↔ w.toInt = (p.val : ℤ) := by
  have hp := p.isLt
  have hv : (BitVec.ofNat 32 p.val).toInt = (p.val : ℤ) := by
    simp only [BitVec.toInt, BitVec.toNat_ofNat]
    omega
  constructor
  · intro h
    rw [h, hv]
  · intro h
    apply BitVec.eq_of_toInt_eq
    rw [h, hv]

/-- One entry of the 0/1 matrix: the comparison of the word at (n, p) with the lane number p, widened to 32 bits
    and converted, is 1 where the word is p's number and 0 elsewhere. -/
theorem onehot_apply (a : IVec S8192x128 32) (n : Fin 8192) (p : Fin 128) :
    (sitofp .f32 (extui 32 (cmpi .eq a (iota .tc S8192x128 32 [1] Facts₀.iota_S8192x128_d1_w32)) Facts₀.natLt_1_32) : FVec Ideal S8192x128 .f32) (ix2 n p)
      = hit (a (ix2 n p)) p := by
  rw [sitofp_apply, extui_apply]
  show FloatOps.sitofp .f32 ((IntOp.cmpi .eq (a (ix2 n p))
      (iota .tc S8192x128 32 [1] Facts₀.iota_S8192x128_d1_w32 (ix2 n p))).setWidth 32) = _
  rw [iota_single_apply]
  show FloatOps.sitofp .f32 ((IntOp.cmpi .eq (a (ix2 n p)) (BitVec.ofNat 32 p.val)).setWidth 32) = _
  unfold hit
  by_cases h : (a (ix2 n p)).toInt = (p.val : ℤ)
  · have hw : a (ix2 n p) = BitVec.ofNat 32 p.val := (word_eq_ofNat_iff _ p).2 h
    rw [if_pos h, hw]
    have : IntOp.cmpi .eq (BitVec.ofNat 32 p.val) (BitVec.ofNat 32 p.val) = 1#1 := by
      simp [IntOp.cmpi]
    rw [this]
    show (((((1#1 : BitVec 1).setWidth 32).toInt : ℤ) : ℝ) : EReal) = 1
    norm_num
  · have hw : ¬ a (ix2 n p) = BitVec.ofNat 32 p.val := fun e => h ((word_eq_ofNat_iff _ p).1 e)
    rw [if_neg h]
    have hb : (a (ix2 n p) == BitVec.ofNat 32 p.val) = false := by
      rw [beq_eq_false_iff_ne]; exact hw
    have : IntOp.cmpi .eq (a (ix2 n p)) (BitVec.ofNat 32 p.val) = 0#1 := by
      show BitVec.ofBool (a (ix2 n p) == BitVec.ofNat 32 p.val) = 0#1
      rw [hb]; rfl
    rw [this]
    show (((((0#1 : BitVec 1).setWidth 32).toInt : ℤ) : ℝ) : EReal) = 0
    norm_num

end Cert.Buckets.Body

end
-- ==== Proof.Payload1.lean ====
import proofs.«425066_j89300960019112_2_alg».proof.Proof.Gen.KernelIdeal.Skeleton
import proofs.«425066_j89300960019112_2_alg».proof.Proof.Spec
import proofs.«425066_j89300960019112_2_alg».proof.Proof.OneHot
import Idealize.ShloMosaic.Lib.Pipeline.Value
import Idealize.ShloMosaic.Lib.ValueLayout
import Idealize.ShloMosaic.PureOps.Ideal.Laws

noncomputable section

open scoped BigOperators

namespace Cert.Buckets.Body

open Idealize.ShloMosaic Idealize.ShloMosaic.ValueIdx Cert.KernelIdeal Cert.KernelIdeal.Gen Cert.Buckets

/-! ## The matrix product that contracts the row axis of both factors

At bucket p and lane d the product sums, over the 8192 rows n, the left factor at (n, p) times the right factor at (n, d). -/

/-- The left factor's row coordinate is the contracted position. -/
private theorem lhs_dot_0 (j : S128x128.Idx) (k : dot_S8192x128_S8192x128_S128x128_0_0_1_1_n_n.contr.Idx) :
    (dot_S8192x128_S8192x128_S128x128_0_0_1_1_n_n.lhsIdx j k 0).val = (k ⟨0, by decide⟩).val :=
  DotDims.lhsIdx_val_of_single dot_S8192x128_S8192x128_S128x128_0_0_1_1_n_n (cl := 0) rfl j k

/-- The left factor's column coordinate is the result's row. -/
private theorem lhs_dot_1 (j : S128x128.Idx) (k : dot_S8192x128_S8192x128_S128x128_0_0_1_1_n_n.contr.Idx) :
    (dot_S8192x128_S8192x128_S128x128_0_0_1_1_n_n.lhsIdx j k 1).val = (j 0).val := by
  unfold DotDims.lhsIdx
  rw [dif_neg (show ¬(1 : Fin S8192x128.rank) ∈ dot_S8192x128_S8192x128_S128x128_0_0_1_1_n_n.lhsBatch by decide),
    dif_pos (show (1 : Fin S8192x128.rank) ∈ dot_S8192x128_S8192x128_S128x128_0_0_1_1_n_n.lhsNonContracting by decide)]
  rfl

/-- The right factor's row coordinate is the contracted position. -/
private theorem rhs_dot_0 (j : S128x128.Idx) (k : dot_S8192x128_S8192x128_S128x128_0_0_1_1_n_n.contr.Idx) :
    (dot_S8192x128_S8192x128_S128x128_0_0_1_1_n_n.rhsIdx j k 0).val = (k ⟨0, by decide⟩).val :=
  DotDims.rhsIdx_val_of_single dot_S8192x128_S8192x128_S128x128_0_0_1_1_n_n (cr := 0) rfl j k

/-- The right factor's column coordinate is the result's column. -/
private theorem rhs_dot_1 (j : S128x128.Idx) (k : dot_S8192x128_S8192x128_S128x128_0_0_1_1_n_n.contr.Idx) :
    (dot_S8192x128_S8192x128_S128x128_0_0_1_1_n_n.rhsIdx j k 1).val = (j 1).val := by
  unfold DotDims.rhsIdx
  rw [dif_neg (show ¬(1 : Fin S8192x128.rank) ∈ dot_S8192x128_S8192x128_S128x128_0_0_1_1_n_n.rhsBatch by decide),
    dif_pos (show (1 : Fin S8192x128.rank) ∈ dot_S8192x128_S8192x128_S128x128_0_0_1_1_n_n.rhsNonContracting by decide)]
  rfl

/-- The product into the zero accumulator, at (p, d): the sum over the rows n of A (n, p) · B (n, d). -/
private theorem mm_apply (A B : FVec Ideal S8192x128 .f32) (p d : Fin 128) :
    (matmul dot_S8192x128_S8192x128_S128x128_0_0_1_1_n_n (some .fp32) A B (constant S128x128 .f32 0x00000000#32) : FVec Ideal S128x128 .f32) (ix2 p d)
      = ∑ n : Fin 8192, A (ix2 n p) * B (ix2 n d) := by
  show FloatOps.matmul _ _ A B (constant S128x128 .f32 0x00000000#32) (ix2 p d) = _
  rw [Ideal.matmul_constant_zero_apply,
    ← Equiv.sum_comp (contrEquiv1 dot_S8192x128_S8192x128_S128x128_0_0_1_1_n_n 8192 rfl rfl).symm]
  refine Finset.sum_congr rfl fun n _ => ?_
  have hk := contrEquiv1_symm_val dot_S8192x128_S8192x128_S128x128_0_0_1_1_n_n 8192 rfl rfl n
  have hl : dot_S8192x128_S8192x128_S128x128_0_0_1_1_n_n.lhsIdx (ix2 p d)
      ((contrEquiv1 dot_S8192x128_S8192x128_S128x128_0_0_1_1_n_n 8192 rfl rfl).symm n) = ix2 n p := by
    funext ax; apply Fin.ext
    match ax with
    | ⟨0, _⟩ => exact (lhs_dot_0 _ _).trans hk
    | ⟨1, _⟩ => exact lhs_dot_1 _ _
  have hr : dot_S8192x128_S8192x128_S128x128_0_0_1_1_n_n.rhsIdx (ix2 p d)
      ((contrEquiv1 dot_S8192x128_S8192x128_S128x128_0_0_1_1_n_n 8192 rfl rfl).symm n) = ix2 n d := by
    funext ax; apply Fin.ext
    match ax with
    | ⟨0, _⟩ => exact (rhs_dot_0 _ _).trans hk
    | ⟨1, _⟩ => exact rhs_dot_1 _ _
  rw [hl, hr]

/-! ## A row of 8192 entries turned into a column and repeated along the 128 lanes -/

/-- An [a] array cast to [a, 1] reads, at (i, u), the operand at i, whatever the unit coordinate u. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (i, c), the operand's row i at its one column. -/
private theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The row v of 8192 entries, cast to a vector, to a column, and repeated along the lanes, reads at (n, p) the entry n of v. -/
private theorem col_apply {α : Type} (v : S1x8192.Idx → α) (n : Fin 8192) (p : Fin 128) :
    broadcastTo S8192x128 (shapeCast S8192x1 (shapeCast S8192 v Facts₀.shapeCasts_S1x8192_S8192)
      Facts₀.shapeCasts_S8192_S8192x1) Facts₀.broadcasts_S8192x1_S8192x128 (ix2 n p) = v (ix2 0 n) :=
  (broadcastTo_a1_ab_apply _ _ n p).trans
    ((shapeCast_a_a1_apply _ _ n 0).trans (shapeCast_1a_a_apply v _ n))

/-- The accumulator starts at the zero splat. -/
theorem pay1_apply (j : S128x128.Idx) : (k0_pay1 (F := Ideal)) j = 0 := by
  unfold k0_pay1
  rw [shapeCast_self]
  show Ideal.ofBits .f32 0x00000000#32 = 0
  exact Ideal.ofBits_zero_f32

/-- One slot's scatter as a matrix product: the 0/1 matrix of the slot's index words, contracted over the rows with
    weight · value, leaves at bucket p and lane d the sum over the rows n of hit (ι n) p · (w n · v (n, d)). -/
private theorem scatter_apply (v5 : Vec Ideal S8192x128 .f32) (ι : Vec Ideal S1x8192 .i32) (w : Vec Ideal S1x8192 .f32)
    (p d : Fin 128) :
    (matmul dot_S8192x128_S8192x128_S128x128_0_0_1_1_n_n (some .fp32)
        (sitofp .f32 (extui 32 (cmpi .eq
          (broadcastTo S8192x128 (shapeCast S8192x1 (shapeCast S8192 ι Facts₀.shapeCasts_S1x8192_S8192)
            Facts₀.shapeCasts_S8192_S8192x1) Facts₀.broadcasts_S8192x1_S8192x128)
          (iota .tc S8192x128 32 [1] Facts₀.iota_S8192x128_d1_w32)) Facts₀.natLt_1_32) : FVec Ideal S8192x128 .f32)
        (mulf (φ := .f32) (broadcastTo S8192x128 (shapeCast S8192x1 (shapeCast S8192 w Facts₀.shapeCasts_S1x8192_S8192)
            Facts₀.shapeCasts_S8192_S8192x1) Facts₀.broadcasts_S8192x1_S8192x128)
          (shapeCast S8192x128 v5 Facts₀.shapeCasts_S8192x128_S8192x128))
        (constant S128x128 .f32 0x00000000#32) : FVec Ideal S128x128 .f32) (ix2 p d)
      = ∑ n : Fin 8192, hit (ι (ix2 0 n)) p * (w (ix2 0 n) * v5 (ix2 n d)) := by
  refine (mm_apply _ _ p d).trans ?_
  refine Finset.sum_congr rfl fun n _ => ?_
  refine congrArg₂ (· * ·) ((onehot_apply _ n p).trans (congrArg (fun x => hit x p) (col_apply ι n p))) ?_
  refine (mulf_apply _ _ _).trans ?_
  exact congrArg₂ (· * ·) (col_apply w n d) (congrFun (shapeCast_self v5 _) (ix2 n d))

/-- Slot 0's store: what the accumulator held plus slot 0's scatter. -/
theorem pay3_apply (v5 : Vec Ideal S8192x128 .f32) (v7 : Vec Ideal S1x8192 .i32) (v9 : Vec Ideal S1x8192 .f32) (v20 : Vec Ideal S128x128 .f32)
    (p d : Fin 128) :
    k0_pay3 v5 v7 v9 v20 (ix2 p d)
      = v20 (ix2 p d) + ∑ n : Fin 8192, hit (v7 (ix2 0 n)) p * (v9 (ix2 0 n) * v5 (ix2 n d)) := by
  unfold k0_pay3 k0_pay2
  refine (congrFun (shapeCast_self _ _) (ix2 p d)).trans ?_
  refine (addf_apply _ _ _).trans ?_
  exact congrArg (v20 (ix2 p d) + ·) (scatter_apply v5 v7 v9 p d)

/-- Slot 1's product, carried on: slot 1's scatter alone. -/
theorem pay4_apply (v5 : Vec Ideal S8192x128 .f32) (v25 : Vec Ideal S1x8192 .i32) (v27 : Vec Ideal S1x8192 .f32) (p d : Fin 128) :
    k0_pay4 v5 v25 v27 (ix2 p d) = ∑ n : Fin 8192, hit (v25 (ix2 0 n)) p * (v27 (ix2 0 n) * v5 (ix2 n d)) := by
  unfold k0_pay4 k0_pay2
  exact scatter_apply v5 v25 v27 p d

/-- Slot 1's store: what the accumulator held plus the carried product. -/
theorem pay5_apply (v37 : FVec Ideal S128x128 .f32) (v38 : Vec Ideal S128x128 .f32) (j : S128x128.Idx) :
    k0_pay5 v37 v38 j = v38 j + v37 j := by
  unfold k0_pay5
  refine (congrFun (shapeCast_self _ _) j).trans ?_
  exact addf_apply _ _ _

end Cert.Buckets.Body

end
-- ==== Proof.Payload2.lean ====
import proofs.«425066_j89300960019112_2_alg».proof.Proof.Gen.KernelIdeal.Skeleton
import proofs.«425066_j89300960019112_2_alg».proof.Proof.Spec
import proofs.«425066_j89300960019112_2_alg».proof.Proof.OneHot
import Idealize.ShloMosaic.Lib.Pipeline.Value
import Idealize.ShloMosaic.Lib.ValueLayout
import Idealize.ShloMosaic.PureOps.Ideal.Laws

noncomputable section

open scoped BigOperators

namespace Cert.Buckets.Body

open Idealize.ShloMosaic Idealize.ShloMosaic.ValueIdx Cert.KernelIdeal Cert.KernelIdeal.Gen Cert.Buckets

/-! ## A row made a column and repeated over the lanes -/

/-- A vector `[a]` cast to the column `[a, 1]` reads, at `(i, u)`, the vector at `i`: both have row-major position `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row of index words `[1, 8192]`, flattened, made a column and repeated over the 128 lanes, reads at
    `(n, p)` the word of position `n`, whatever the lane. -/
private theorem spread_apply (v : Vec Ideal S1x8192 .i32) (n : Fin 8192) (p : Fin 128) :
    (broadcastTo S8192x128 (shapeCast S8192x1 (shapeCast S8192 v Facts₀.shapeCasts_S1x8192_S8192)
        Facts₀.shapeCasts_S8192_S8192x1) Facts₀.broadcasts_S8192x1_S8192x128 : IVec S8192x128 32) (ix2 n p)
      = v (ix2 0 n) :=
  (broadcastTo_a1_ab_apply _ _ n p).trans
    ((shapeCast_a_a1_apply _ _ n 0).trans (shapeCast_1a_a_apply v _ n))

/-! ## The product of the 0/1 matrix with the table of buckets, read at an entry

The contraction runs over axis 1 of the left factor `[8192, 128]` and axis 0 of the right factor `[128, 128]`: entry
`(n, d)` of the product is the sum over the 128 buckets `p` of left `(n, p)` times right `(p, d)`. -/

private theorem lhs_gather_0 (j : S8192x128.Idx) (k : dot_S8192x128_S128x128_S8192x128_1_0_0_1_n_n.contr.Idx) :
    (dot_S8192x128_S128x128_S8192x128_1_0_0_1_n_n.lhsIdx j k 0 : ℕ) = j 0 := by
  simp [DotDims.lhsIdx, dot_S8192x128_S128x128_S8192x128_1_0_0_1_n_n]; rfl
private theorem lhs_gather_1 (j : S8192x128.Idx) (k : dot_S8192x128_S128x128_S8192x128_1_0_0_1_n_n.contr.Idx) :
    (dot_S8192x128_S128x128_S8192x128_1_0_0_1_n_n.lhsIdx j k 1 : ℕ) = k ⟨0, by decide⟩ := by
  simp [DotDims.lhsIdx, dot_S8192x128_S128x128_S8192x128_1_0_0_1_n_n]; rfl
private theorem rhs_gather_0 (j : S8192x128.Idx) (k : dot_S8192x128_S128x128_S8192x128_1_0_0_1_n_n.contr.Idx) :
    (dot_S8192x128_S128x128_S8192x128_1_0_0_1_n_n.rhsIdx j k 0 : ℕ) = k ⟨0, by decide⟩ := by
  simp [DotDims.rhsIdx, dot_S8192x128_S128x128_S8192x128_1_0_0_1_n_n]; rfl
private theorem rhs_gather_1 (j : S8192x128.Idx) (k : dot_S8192x128_S128x128_S8192x128_1_0_0_1_n_n.contr.Idx) :
    (dot_S8192x128_S128x128_S8192x128_1_0_0_1_n_n.rhsIdx j k 1 : ℕ) = j 1 := by
  simp [DotDims.rhsIdx, dot_S8192x128_S128x128_S8192x128_1_0_0_1_n_n]; rfl

/-- The product into a zero accumulator at `(n, d)`: the sum over the buckets `p` of left `(n, p)` · right `(p, d)`. -/
private theorem gather_read (lhs : FVec Ideal S8192x128 .f32) (rhs : Vec Ideal S128x128 .f32) (n : Fin 8192) (d : Fin 128) :
    (matmul (φ₁ := .f32) (φ₂ := .f32) dot_S8192x128_S128x128_S8192x128_1_0_0_1_n_n (some .fp32) lhs rhs
        (constant (F := Ideal) S8192x128 .f32 0x00000000#32) : FVec Ideal S8192x128 .f32) (ix2 n d)
      = ∑ p : Fin 128, lhs (ix2 n p) * rhs (ix2 p d) := by
  refine (Ideal.matmul_constant_zero_apply dot_S8192x128_S128x128_S8192x128_1_0_0_1_n_n (some .fp32) lhs rhs (ix2 n d)).trans ?_
  rw [← Equiv.sum_comp (contrEquiv1 dot_S8192x128_S128x128_S8192x128_1_0_0_1_n_n 128 rfl rfl).symm]
  refine Finset.sum_congr rfl fun p _ => ?_
  have hk : (((contrEquiv1 dot_S8192x128_S128x128_S8192x128_1_0_0_1_n_n 128 rfl rfl).symm p) ⟨0, by decide⟩ : ℕ) = p.val :=
    contrEquiv1_symm_val _ 128 rfl rfl p
  have hl : dot_S8192x128_S128x128_S8192x128_1_0_0_1_n_n.lhsIdx (ix2 n d)
      ((contrEquiv1 dot_S8192x128_S128x128_S8192x128_1_0_0_1_n_n 128 rfl rfl).symm p) = ix2 n p :=
    Shape.idx_ext₂ (lhs_gather_0 _ _) ((lhs_gather_1 _ _).trans hk)
  have hr : dot_S8192x128_S128x128_S8192x128_1_0_0_1_n_n.rhsIdx (ix2 n d)
      ((contrEquiv1 dot_S8192x128_S128x128_S8192x128_1_0_0_1_n_n 128 rfl rfl).symm p) = ix2 p d :=
    Shape.idx_ext₂ ((rhs_gather_0 _ _).trans hk) (rhs_gather_1 _ _)
  rw [hl, hr]

/-- With the 0/1 matrix of a row of index words as the left factor: entry `(n, d)` is the sum over the buckets `p` of
    (1 if position `n`'s word is `p`'s number, else 0) · table `(p, d)`. -/
private theorem gather_hit (tbl : Vec Ideal S128x128 .f32) (v : Vec Ideal S1x8192 .i32) (n : Fin 8192) (d : Fin 128) :
    (matmul (φ₁ := .f32) (φ₂ := .f32) dot_S8192x128_S128x128_S8192x128_1_0_0_1_n_n (some .fp32)
        (sitofp .f32 (extui 32 (cmpi .eq
          (broadcastTo S8192x128 (shapeCast S8192x1 (shapeCast S8192 v Facts₀.shapeCasts_S1x8192_S8192)
            Facts₀.shapeCasts_S8192_S8192x1) Facts₀.broadcasts_S8192x1_S8192x128 : IVec S8192x128 32)
          (iota .tc S8192x128 32 [1] Facts₀.iota_S8192x128_d1_w32)) Facts₀.natLt_1_32) : FVec Ideal S8192x128 .f32)
        tbl (constant (F := Ideal) S8192x128 .f32 0x00000000#32) : FVec Ideal S8192x128 .f32) (ix2 n d)
      = ∑ p : Fin 128, hit (v (ix2 0 n)) p * tbl (ix2 p d) := by
  refine (gather_read _ tbl n d).trans ?_
  refine Finset.sum_congr rfl fun p _ => ?_
  refine congrArg (· * tbl (ix2 p d)) ((onehot_apply _ n p).trans ?_)
  exact congrArg (fun w => hit w p) (spread_apply v n p)

theorem pay6_apply (v43 : Vec Ideal S128x128 .f32) (v46 : Vec Ideal S1x8192 .i32) (n : Fin 8192) (d : Fin 128) :
    k0_pay6 (iota .tc S8192x128 32 [1] Facts₀.iota_S8192x128_d1_w32) v43 v46 (ix2 n d)
      = ∑ p : Fin 128, hit (v46 (ix2 0 n)) p * v43 (ix2 p d) := by
  unfold k0_pay6
  exact gather_hit v43 v46 n d

theorem pay7_apply (v43 : Vec Ideal S128x128 .f32) (v55 : Vec Ideal S1x8192 .i32) (v63 : Vec Ideal S8192x128 .f32) (n : Fin 8192) (d : Fin 128) :
    k0_pay7 (iota .tc S8192x128 32 [1] Facts₀.iota_S8192x128_d1_w32) v43 v55 v63 (ix2 n d)
      = v63 (ix2 n d) + ∑ p : Fin 128, hit (v55 (ix2 0 n)) p * v43 (ix2 p d) := by
  unfold k0_pay7
  refine (addf_apply _ _ (ix2 n d)).trans ?_
  exact congrArg₂ (· + ·) (congrFun (shapeCast_self v63 _) (ix2 n d)) (gather_hit v43 v55 n d)

theorem pay8_apply (v44 v67 : Vec Ideal S8192x128 .f32) (j : S8192x128.Idx) :
    k0_pay8 v44 v67 j = v67 j * v44 j := by
  unfold k0_pay8
  refine (mulf_apply _ _ j).trans ?_
  exact congrArg₂ (· * ·) (congrFun (shapeCast_self v67 _) j) (congrFun (shapeCast_self v44 _) j)

end Cert.Buckets.Body

end
-- ==== Proof.BodyValue.lean ====
import proofs.«425066_j89300960019112_2_alg».proof.Proof.Gen.KernelIdeal.Frame
import proofs.«425066_j89300960019112_2_alg».proof.Proof.Spec
import proofs.«425066_j89300960019112_2_alg».proof.Proof.Payload1
import proofs.«425066_j89300960019112_2_alg».proof.Proof.Payload2
import Idealize.ShloMosaic.Lib.Pipeline.Value

set_option maxRecDepth 16384

noncomputable section

open scoped BigOperators

namespace Cert.Buckets.Body

open Idealize.ShloMosaic Idealize.ShloMosaic.TcCoe Idealize.ShloMosaic.Tactic Idealize.ShloMosaic.ValueIdx
open Idealize.SL Idealize.SL.Sem
open Cert.KernelIdeal Cert.KernelIdeal.Gen Cert.Buckets

variable {F : FTy → Type} [FloatOps F]

theorem hz2 : (![0, 0] : Fin 2 → Nat) = fun _ => 0 := funext fun a => by fin_cases a <;> rfl

/-- A load of the whole buffer after a list of stores whose LAST one wrote the whole buffer reads that store's value. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon']
  show View.ld (View.canon _) (Rect.unit off S.size inb) = w
  rw [View.canon_cons_unit_zero h, View.ld_unit_zero h]

/-- Row `k` of the per-slot rows, as the body loads it. -/
def row0 {e : EltTy} (x : Vec F S2x8192 e) : Vec F S1x8192 e := View.ld x (Rect.unit (s := S2x8192) ![0, 0] S1x8192.size Facts₀.inb_S2x8192_S1x8192_0_0)
def row1 {e : EltTy} (x : Vec F S2x8192 e) : Vec F S1x8192 e := View.ld x (Rect.unit (s := S2x8192) ![1, 0] S1x8192.size Facts₀.inb_S2x8192_S1x8192_1_0)

/-- The buckets after slot 0's hits, and after both slots'. -/
abbrev st1 (x0 : Vec F S2x8192 .f32) (x1 : Vec F S2x8192 .i32) (x2 : Vec F S8192x128 .f32) : Vec F S128x128 .f32 :=
  k0_pay3 x2 (row0 x1) (row0 x0) (k0_pay1 (F := F))
abbrev st2 (x0 : Vec F S2x8192 .f32) (x1 : Vec F S2x8192 .i32) (x2 : Vec F S8192x128 .f32) : Vec F S128x128 .f32 :=
  k0_pay5 (k0_pay4 x2 (row1 x1) (row1 x0)) (st1 x0 x1 x2)

/-- What the body leaves in its output block: the three stores read back are the last one's value, and each load of the
    bucket table or of the output reads the store before it. -/
theorem body_eq (c : Dev nD) (i : grid0.Coords) (arg1 : Memref sig .tc .vmem S2x8192 .f32) (harg1 : arg1.IsWhole) (arg2 : Memref sig .tc .vmem S2x8192 .i32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S128x128 .f32) (harg6 : arg6.IsWhole) (x0 : Vec F S2x8192 .f32) (x1 : Vec F S2x8192 .i32) (x2 : Vec F S8192x128 .f32) (x3 : Vec F S8192x128 .f32) :
    out0_A_4 c i arg1 harg1 arg2 harg2 arg3 harg3 arg4 harg4 arg5 harg5 arg6 harg6 x0 x1 x2 x3
      = k0_pay8 x3 (k0_pay7 (iota .tc S8192x128 32 [1] Facts₀.iota_S8192x128_d1_w32) (st2 x0 x1 x2) (row1 x1)
          (k0_pay6 (iota .tc S8192x128 32 [1] Facts₀.iota_S8192x128_d1_w32) (st2 x0 x1 x2) (row0 x1))) := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  rw [View.canon_cons_unit_zero (S := S8192x128) hz2]
  simp only [View.readAt_eq_ld, Memref.IsWhole.read_unread,
    readCov_cons_whole (S := S8192x128) _ hz2, readCov_cons_whole (S := S128x128) _ hz2,
    View.readCov_unit_zero (S := S8192x128) _ hz2, View.readCov_unit_zero (S := S128x128) _ hz2,
    View.ld_unit_zero (S := S8192x128) hz2, View.ld_unit_zero (S := S128x128) hz2]
  rfl

/-- The loaded row 0 at position `n` is row 0 of the rows. -/
theorem row0_apply {e : EltTy} (x : Vec F S2x8192 e) (n : Fin 8192) : row0 x (ix2 0 n) = x (ix2 0 n) := by
  unfold row0
  show x _ = x _
  congr 1
  funext a
  apply Fin.ext
  match a with
  | ⟨0, _⟩ => rfl
  | ⟨1, _⟩ => show 0 + 1 * n.val = n.val; omega

/-- The loaded row 1 at position `n` is row 1 of the rows. -/
theorem row1_apply {e : EltTy} (x : Vec F S2x8192 e) (n : Fin 8192) : row1 x (ix2 0 n) = x (ix2 1 n) := by
  unfold row1
  show x _ = x _
  congr 1
  funext a
  apply Fin.ext
  match a with
  | ⟨0, _⟩ => rfl
  | ⟨1, _⟩ => show 0 + 1 * n.val = n.val; omega

/-- The body's output block at (n, d), over the extended reals: the two buckets position `n`'s slots hit, added, times `q`. -/
theorem body_value (c : Dev nD) (i : grid0.Coords) (arg1 : Memref sig .tc .vmem S2x8192 .f32) (harg1 : arg1.IsWhole) (arg2 : Memref sig .tc .vmem S2x8192 .i32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S128x128 .f32) (harg6 : arg6.IsWhole)
    (x0 : Vec Ideal S2x8192 .f32) (x1 : Vec Ideal S2x8192 .i32) (x2 : Vec Ideal S8192x128 .f32) (x3 : Vec Ideal S8192x128 .f32)
    (n : Fin 8192) (d : Fin 128) :
    out0_A_4 (F := Ideal) c i arg1 harg1 arg2 harg2 arg3 harg3 arg4 harg4 arg5 harg5 arg6 harg6 x0 x1 x2 x3 (ix2 n d) = blkOut x0 x1 x2 x3 n d := by
  -- the bucket table the gather reads: slot 0's hits added onto zero, then slot 1's
  have hst : ∀ p : Fin 128, st2 x0 x1 x2 (ix2 p d) = blkStates x0 x1 x2 p d := by
    intro p
    show k0_pay5 (k0_pay4 x2 (row1 x1) (row1 x0)) (k0_pay3 x2 (row0 x1) (row0 x0) (k0_pay1 (F := Ideal))) (ix2 p d) = _
    rw [pay5_apply, pay3_apply, pay4_apply, pay1_apply, zero_add]
    simp only [row0_apply, row1_apply]
    unfold blkStates
    rfl
  rw [body_eq, pay8_apply, pay7_apply, pay6_apply]
  simp only [row0_apply, row1_apply, hst]
  unfold blkOut
  rfl

end Cert.Buckets.Body

end
-- ==== Proof.HostLayout.lean ====
import proofs.«425066_j89300960019112_2_alg».proof.KernelIdeal
import proofs.«425066_j89300960019112_2_alg».proof.Proof.Gen.KernelIdeal
import proofs.«425066_j89300960019112_2_alg».proof.Proof.Spec
import Idealize.ShloMosaic.Lib.Pipeline.Value
import Idealize.ShloMosaic.Lib.ValueLayout
import Idealize.ShloMosaic.PureOps.Ideal.Laws
import Idealize.ShloMosaic.Lib.IdealHost

noncomputable section

open scoped BigOperators

namespace Cert.Buckets.Host

open Idealize.ShloMosaic Idealize.ShloMosaic.ValueIdx Cert.KernelIdeal Cert.KernelIdeal.Gen Cert.Buckets

theorem rows_read {α : Type} (x : S4x2048x2.Idx → α) (ht : S4x2048x2.Transposes [2, 0, 1] S2x4x2048) (hc : S2x4x2048.ShapeCasts S2x8192)
    (k : Fin 2) (n : Fin 8192) :
    shapeCast S2x8192 (transpose S2x4x2048 [2, 0, 1] x ht) hc (ix2 k n) = x (ix3 (posB n) (posS n) k) := by
  -- the reshape keeps the row-major position: (k · 4 + n / 2048) · 2048 + n % 2048 = k · 8192 + n
  refine (shapeCast_apply _ hc (ix2 k n) (ix3 k (posB n) (posS n)) ?_).trans ?_
  · rewrite [Shape.rowMajor_val_three, Shape.rowMajor_val_two]
    show (k.val * 4 + n.val / 2048) * 2048 + n.val % 2048 = k.val * 8192 + n.val
    omega
  -- the transpose puts source axis 2 first: result (k, b, s) reads source (b, s, k)
  · exact transpose_apply [2, 0, 1] x ht (ix3 k (posB n) (posS n)) (ix3 (posB n) (posS n) k)
      (fun b => by match b with | ⟨0, _⟩ => rfl | ⟨1, _⟩ => rfl | ⟨2, _⟩ => rfl)

theorem flatten_read {α : Type} (x : S4x2048x128.Idx → α) (hc : S4x2048x128.ShapeCasts S8192x128) (n : Fin 8192) (d : Fin 128) :
    shapeCast S8192x128 x hc (ix2 n d) = x (ix3 (posB n) (posS n) d) := by
  -- same row-major position: (n / 2048 · 2048 + n % 2048) · 128 + d = n · 128 + d
  refine shapeCast_apply x hc (ix2 n d) (ix3 (posB n) (posS n) d) ?_
  rewrite [Shape.rowMajor_val_three, Shape.rowMajor_val_two]
  show (n.val / 2048 * 2048 + n.val % 2048) * 128 + d.val = n.val * 128 + d.val
  omega

theorem unflatten_read {α : Type} (y : S8192x128.Idx → α) (hc : S8192x128.ShapeCasts S4x2048x128) (b : Fin 4) (s : Fin 2048) (d : Fin 128) :
    shapeCast S4x2048x128 y hc (ix3 b s d) = y (ix2 (flat b s) d) := by
  -- same row-major position: (2048 b + s) · 128 + d on both sides
  refine shapeCast_apply y hc (ix3 b s d) (ix2 (flat b s) d) ?_
  rewrite [Shape.rowMajor_val_two, Shape.rowMajor_val_three]
  show (b.val * 2048 + s.val) * 128 + d.val = (b.val * 2048 + s.val) * 128 + d.val
  rfl

theorem mean_read (x1 : FVec Ideal S4x2048x2x32 .f32) (b : Fin 4) (s : Fin 2048) (k : Fin 2) :
    (Host.divf (Host.reduceAdd x1 (constant S_ .f32 0x00000000#32) Facts₀.reducesTo_S4x2048x2x32_S4x2048x2_d3 Facts₀.h_S_)
        (broadcastInDim S4x2048x2 ![] Facts₀.bcast_S_S4x2048x2 (constant S_ .f32 0x42000000#32)) : FVec Ideal S4x2048x2 .f32) (ix3 b s k)
      = weight x1 b s k := by
  -- the sum over axis 3 from the initial value 0 is the sum of the 32 keys of (b, s, k)
  have h1 : (Host.reduceAdd x1 (constant S_ .f32 0x00000000#32) Facts₀.reducesTo_S4x2048x2x32_S4x2048x2_d3 Facts₀.h_S_
      : FVec Ideal S4x2048x2 .f32) (ix3 b s k) = ∑ c : Fin 32, x1 (ix4 b s k c) := by
    refine (hostReduceAdd_apply x1 _ _ _ _).trans ?_
    rw [Ideal.hostReduceAdd_single Facts₀.reducesTo_S4x2048x2x32_S4x2048x2_d3 (by decide)]
    show Ideal.ofBits .f32 0x00000000#32 + _ = _
    rw [Ideal.ofBits_zero_f32, zero_add]
    refine Finset.sum_congr rfl fun c _ => ?_
    exact congrArg x1 (funext fun a => Fin.ext (by match a with | ⟨0, _⟩ => rfl | ⟨1, _⟩ => rfl | ⟨2, _⟩ => rfl | ⟨3, _⟩ => rfl))
  -- the divisor is the scalar 32 everywhere
  have h2 : (broadcastInDim S4x2048x2 ![] Facts₀.bcast_S_S4x2048x2 (constant S_ .f32 0x42000000#32) : FVec Ideal S4x2048x2 .f32) (ix3 b s k)
      = ((32 : ℝ) : EReal) := by
    refine (broadcastInDim_scalar_apply _ _ _).trans ?_
    exact ofBits_32
  refine (hostDivf_apply _ _ _).trans ?_
  rw [h1, h2]
  rfl

/-- the weights as the region finds them -/
theorem weights_eq (x1 : FVec Ideal S4x2048x2x32 .f32) :
    shapeCast S2x8192 (transpose S2x4x2048 [2, 0, 1]
        (Host.divf (Host.reduceAdd x1 (constant S_ .f32 0x00000000#32) Facts₀.reducesTo_S4x2048x2x32_S4x2048x2_d3 Facts₀.h_S_)
          (broadcastInDim S4x2048x2 ![] Facts₀.bcast_S_S4x2048x2 (constant S_ .f32 0x42000000#32)) : FVec Ideal S4x2048x2 .f32)
        Facts₀.transposes_S4x2048x2_S2x4x2048_2_0_1) Facts₀.shapeCasts_S2x4x2048_S2x8192
      = wRows x1 := by
  funext j
  obtain ⟨k, n, rfl⟩ : ∃ (k : Fin 2) (n : Fin 8192), j = ix2 k n := ⟨j 0, j 1, eq_ix2 j⟩
  refine (rows_read _ _ _ k n).trans ?_
  refine (mean_read x1 _ _ _).trans ?_
  rfl

/-- the index words as the region finds them -/
theorem indices_eq (x0 : IVec S4x2048x2 32) :
    shapeCast S2x8192 (transpose S2x4x2048 [2, 0, 1] x0 Facts₀.transposes_S4x2048x2_S2x4x2048_2_0_1) Facts₀.shapeCasts_S2x4x2048_S2x8192
      = iRows x0 := by
  funext j
  obtain ⟨k, n, rfl⟩ : ∃ (k : Fin 2) (n : Fin 8192), j = ix2 k n := ⟨j 0, j 1, eq_ix2 j⟩
  refine (rows_read x0 _ _ k n).trans ?_
  rfl

/-- values and queries as the region finds them -/
theorem flatten_eq (x : FVec Ideal S4x2048x128 .f32) :
    shapeCast S8192x128 x Facts₀.shapeCasts_S4x2048x128_S8192x128 = flatten x := by
  funext j
  obtain ⟨n, d, rfl⟩ : ∃ (n : Fin 8192) (d : Fin 128), j = ix2 n d := ⟨j 0, j 1, eq_ix2 j⟩
  refine (flatten_read x _ n d).trans ?_
  rfl

end Cert.Buckets.Host

end
-- ==== Proof.KernelValue.lean ====
import proofs.«425066_j89300960019112_2_alg».proof.Proof.Gen.KernelIdeal.Frame
import proofs.«425066_j89300960019112_2_alg».proof.Proof.Spec
import proofs.«425066_j89300960019112_2_alg».proof.Proof.BodyValue
import proofs.«425066_j89300960019112_2_alg».proof.Proof.HostLayout
import Idealize.ShloMosaic.Lib.Pipeline.Value
import Idealize.ShloMosaic.Lib.StableHlo.Run
import Idealize.ShloMosaic.Lib.Tactic

set_option maxRecDepth 16384

noncomputable section

open scoped BigOperators

namespace Cert.Buckets.Kernel

open Cert.KernelIdeal Cert.KernelIdeal.Gen Idealize.ShloMosaic Idealize.ShloMosaic.TcCoe Idealize.SL.Sem
open Idealize.ShloMosaic.ValueIdx Cert.Buckets
open Idealize.ShloMosaic.Pipeline (Dat)

variable (m : (ℓ : Loc nD τ sig) → Buf (Elt Ideal) ℓ) (ρ : Dev nD → PrngReg)

/-! ## The arguments, and the four arrays the region finds -/

abbrev aIdx (c : Dev nD) : S4x2048x2.Idx → BitVec 32 := m ((c : Thread nD τ).loc main_arg0)
abbrev aKeys (c : Dev nD) : S4x2048x2x32.Idx → EReal := m ((c : Thread nD τ).loc main_arg1)
abbrev aVals (c : Dev nD) : S4x2048x128.Idx → EReal := m ((c : Thread nD τ).loc main_arg2)
abbrev aQ (c : Dev nD) : S4x2048x128.Idx → EReal := m ((c : Thread nD τ).loc main_arg3)

/-- The rows of weights: the mean of each pair's keys, slot-major over the flattened positions. -/
theorem found_weights (c : Dev nD) : (V m c main_v6 : S2x8192.Idx → EReal) = wRows (aKeys m c) := by
  show StableHlo.after hostOps0 (fun b => m (c, b)) (Proc.devRef .tc main_v6) = _
  after_results
  exact Host.weights_eq _

/-- The rows of index words. -/
theorem found_indices (c : Dev nD) : (V m c main_v4 : S2x8192.Idx → BitVec 32) = iRows (aIdx m c) := by
  show StableHlo.after hostOps0 (fun b => m (c, b)) (Proc.devRef .tc main_v4) = _
  after_results
  exact Host.indices_eq _

/-- The values with their positions flattened. -/
theorem found_values (c : Dev nD) : (V m c main_v7 : S8192x128.Idx → EReal) = flatten (aVals m c) := by
  show StableHlo.after hostOps0 (fun b => m (c, b)) (Proc.devRef .tc main_v7) = _
  after_results
  exact Host.flatten_eq _

/-- The queries with their positions flattened. -/
theorem found_queries (c : Dev nD) : (V m c main_v8 : S8192x128.Idx → EReal) = flatten (aQ m c) := by
  show StableHlo.after hostOps0 (fun b => m (c, b)) (Proc.devRef .tc main_v8) = _
  after_results
  exact Host.flatten_eq _

/-! ## The one grid point's blocks are the whole arrays -/

/-- Every window's block index is 0 on both axes at the grid's one point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem blk_weights (c : Dev nD) (t : Fin cfg0.N) : (iblk m c 0 t : Vec Ideal S2x8192 .f32) = V m c main_v6 := by
  obtain ⟨e0, e1, -⟩ := idx_facts t
  funext j
  unfold iblk
  rw [View.read_apply]
  show V m c main_v6 _ = V m c main_v6 j
  congr 1
  funext a
  apply Fin.ext
  match a with
  | ⟨0, _⟩ => show win0_0.index t 0 * 2 + 1 * (j 0).val = (j 0).val; rw [e0]; omega
  | ⟨1, _⟩ => show win0_0.index t 1 * 8192 + 1 * (j 1).val = (j 1).val; rw [e1]; omega

theorem blk_indices (c : Dev nD) (t : Fin cfg0.N) : (iblk m c 1 t : Vec Ideal S2x8192 .i32) = V m c main_v4 := by
  obtain ⟨-, -, e0, e1, -⟩ := idx_facts t
  funext j
  unfold iblk
  rw [View.read_apply]
  show V m c main_v4 _ = V m c main_v4 j
  congr 1
  funext a
  apply Fin.ext
  match a with
  | ⟨0, _⟩ => show win0_1.index t 0 * 2 + 1 * (j 0).val = (j 0).val; rw [e0]; omega
  | ⟨1, _⟩ => show win0_1.index t 1 * 8192 + 1 * (j 1).val = (j 1).val; rw [e1]; omega

theorem blk_values (c : Dev nD) (t : Fin cfg0.N) : (iblk m c 2 t : Vec Ideal S8192x128 .f32) = V m c main_v7 := by
  obtain ⟨-, -, -, -, e0, e1, -⟩ := idx_facts t
  funext j
  unfold iblk
  rw [View.read_apply]
  show V m c main_v7 _ = V m c main_v7 j
  congr 1
  funext a
  apply Fin.ext
  match a with
  | ⟨0, _⟩ => show win0_2.index t 0 * 8192 + 1 * (j 0).val = (j 0).val; rw [e0]; omega
  | ⟨1, _⟩ => show win0_2.index t 1 * 128 + 1 * (j 1).val = (j 1).val; rw [e1]; omega

theorem blk_queries (c : Dev nD) (t : Fin cfg0.N) : (iblk m c 3 t : Vec Ideal S8192x128 .f32) = V m c main_v8 := by
  obtain ⟨-, -, -, -, -, -, e0, e1, -⟩ := idx_facts t
  funext j
  unfold iblk
  rw [View.read_apply]
  show V m c main_v8 _ = V m c main_v8 j
  congr 1
  funext a
  apply Fin.ext
  match a with
  | ⟨0, _⟩ => show win0_3.index t 0 * 8192 + 1 * (j 0).val = (j 0).val; rw [e0]; omega
  | ⟨1, _⟩ => show win0_3.index t 1 * 128 + 1 * (j 1).val = (j 1).val; rw [e1]; omega

/-! ## The output array -/

/-- The output over the flattened positions: at (n, d) the two buckets position `n`'s slots hit, added, times the query. -/
abbrev outArr (c : Dev nD) : S8192x128.Idx → EReal := fun j =>
  blkOut (wRows (aKeys m c)) (iRows (aIdx m c)) (flatten (aVals m c)) (flatten (aQ m c)) ⟨(j 0).val, idx2_lt0 j⟩ ⟨(j 1).val, idx2_lt1 j⟩

/-- What the output's buffer holds after the grid's point. -/
theorem outs_eq (c : Dev nD) (t : Fin cfg0.N) : (outsAt0 m c t : S8192x128.Idx → EReal) = outArr m c := by
  funext j
  obtain ⟨n, d, rfl⟩ : ∃ (n : Fin 8192) (d : Fin 128), j = ix2 n d := ⟨j 0, j 1, eq_ix2 j⟩
  unfold outsAt0
  refine (Body.body_value c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) n d).trans ?_
  rw [blk_weights, blk_indices, blk_values, blk_queries, found_weights, found_indices, found_values, found_queries]

/-- The one write-back writes the whole array: block (0, 0) of the output array read through zero offsets is the array. -/
theorem flushed_eq (c : Dev nD) (t : Fin cfg0.N) (hf : (cfg0.win 4).flush t = true) :
    (dats m 0 c).flushed 4 t = ((cfg0.win 4).blk t).view.read (Elt Ideal) (outArr m c) := by
  obtain ⟨-, -, -, -, -, -, -, -, e0, e1⟩ := idx_facts t
  show (cfg0.win 4).cut (grid0.coords t) ((dats m 0 c).after 4 t) = _
  rw [after0_4, outs_eq]
  have hz' : (fun a => win0_4.index t a * main_v9.ty.shape.size a) = fun _ => 0 := funext fun a => by
    match a with
    | ⟨0, _⟩ => show win0_4.index t 0 * _ = 0; rw [e0, Nat.zero_mul]
    | ⟨1, _⟩ => show win0_4.index t 1 * _ = 0; rw [e1, Nat.zero_mul]
  exact (Memref.read_access_unit_zero (Elt Ideal) main_v9 hz' (fun a => by rw [congrFun hz' a]; simp) (outArr m c)).symm

/-- So the output array ends holding `outArr`: the point's block covers it. -/
theorem final_out (c : Dev nD) : (dats m 0 c).arrAt 4 cfg0.N = outArr m c :=
  (dats m 0 c).arrAt_eq_of_cover 4 (outArr m c) (flushed_eq m c) fun i =>
    ⟨t0_0, flush0_4 t0_0, by
      obtain ⟨-, -, -, -, -, -, -, -, e0, e1⟩ := idx_facts t0_0
      show i ∈ ((View.whole main_v9).slice (win0_4.rect t0_0)).set
      rw [View.set_slice_whole, Rect.mem_set_unit]
      intro a
      have h0 : (i 0 : Nat) < 8192 := (i 0).isLt
      have h1 : (i 1 : Nat) < 128 := (i 1).isLt
      match a with
      | ⟨0, _⟩ =>
        show win0_4.index t0_0 0 * win0_4.size 0 ≤ (i 0 : Nat) ∧ (i 0 : Nat) < win0_4.index t0_0 0 * win0_4.size 0 + win0_4.xsize (grid0.coords t0_0) 0
        rw [e0, show win0_4.xsize (grid0.coords t0_0) 0 = 8192 from by decide +kernel]; omega
      | ⟨1, _⟩ =>
        show win0_4.index t0_0 1 * win0_4.size 1 ≤ (i 1 : Nat) ∧ (i 1 : Nat) < win0_4.index t0_0 1 * win0_4.size 1 + win0_4.xsize (grid0.coords t0_0) 1
        rw [e1, show win0_4.xsize (grid0.coords t0_0) 1 = 128 from by decide +kernel]; omega⟩

/-! ## The result: the output array with its positions unflattened -/

theorem tail_out (c : Dev nD) :
    Pipeline.afterTail₀ cfgs (dats m) 0 (V0 m) [hostOps1] c main_v10 = kerArr (aIdx m c) (aKeys m c) (aVals m c) (aQ m c) := by
  unfold Pipeline.afterTail₀
  show StableHlo.after hostOps1 _ (Proc.devRef .tc main_v10) = _
  after_results
  have e : Pipeline.withArrays spec0 c (V0 m c) (fun w => (dats m 0 c).arrAt w cfg0.N) (Proc.devRef .tc main_v9) = outArr m c :=
    (Pipeline.withArrays_arr spec0 launch0.win.arr_inj c _ _ 4).trans (final_out m c)
  refine (congrArg (fun x => shapeCast S4x2048x128 x Facts₀.shapeCasts_S8192x128_S4x2048x128) e).trans ?_
  funext i
  obtain ⟨b, s, d, rfl⟩ : ∃ (b : Fin 4) (s : Fin 2048) (d : Fin 128), i = ix3 b s d := ⟨i 0, i 1, i 2, eq_ix3 i⟩
  rw [Host.unflatten_read]
  rfl

/-- The run, read: the result at `kerArr` of the four arguments, the arguments unchanged. -/
theorem run : θ_run defs (onTc (τ := τ) (main (F := Ideal))) ⟨m, fun _ => 0, ρ⟩ fun r => ∀ c : Dev nD,
      r.2.mem ((c : Thread nD τ).loc main_v10) = kerArr (aIdx m c) (aKeys m c) (aVals m c) (aQ m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v10 (Pipeline.mem_restRefs_of main_v10 (by decide) (by decide))).trans (tail_out m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Buckets.Kernel

end
-- ==== Proof.lean ====
/-
  Partitioned outer-product states, written and read back: the kernel and its reference compute one function.

  Inputs: index words `idx : [4, 2048, 2]`, `keys : [4, 2048, 2, 32]`, `vals, q : [4, 2048, 128]`. Every pair (position (b, s),
  slot k) points at one of 128 buckets. The reference adds, into bucket p, the outer product keys(b,s,k,·) ⊗ vals(b,s,·) of every
  pair pointing at p, takes the mean over the 32 keys, and at position (b, s) reads back the two buckets its slots point at,
  adds them and multiplies by q(b,s,·); its read is a gather by index, which wraps a negative index by 128 and clamps any
  index into the table. The kernel takes the mean of each pair's keys first (one weight per pair), forms the 0/1 matrix "pair n
  points at bucket p" for each slot, accumulates the buckets as (0/1 matrix)ᵀ · (weight · vals) over the two slots, and reads
  them back as (0/1 matrix) · buckets, added over the two slots, times q.

  Over the extended reals, for real entries (the precondition says every float entry is finite) the mean over the keys
  commutes with the scatter: (∑_c keys_c)/32 · v = ∑_c (keys_c · v)/32, sums exchanged (`Cert.Buckets.refArr_eq_kerArr`; this is
  where finiteness is used: the product does not distribute over a sum of infinities). An index outside 0 … 127 is dropped by
  both scatters, but read back differently (the 0/1 row of such an index is all zero; the gather wraps or clamps it into the
  table), so the precondition also says every index word is a bucket number, 0 ≤ idx < 128, which is where the reference's
  own indexing is in range; under it both reads are the bucket's row.

  The pieces: the kernel's run with its result named (`Cert.Buckets.Kernel.run`: its frame run read through the one grid
  point's blocks, the body's stores as functions of the blocks, the layout operations before and after); the reference's run
  read one operation at a time, its scatter-add and gather by hand (`Cert.Buckets.Ref.ref_value`); the precondition decoded
  (`Cert.Buckets.Pre.of_pre`); the identity. The ideal pass rewrote nothing, so `preserves` is `True`.
-/
import proofs.«425066_j89300960019112_2_alg».proof.Defs
import proofs.«425066_j89300960019112_2_alg».proof.Proof.Gen.Kernel
import proofs.«425066_j89300960019112_2_alg».proof.Proof.Gen.Kernel.Skeleton
import proofs.«425066_j89300960019112_2_alg».proof.Proof.Gen.Kernel.Launch
import proofs.«425066_j89300960019112_2_alg».proof.Proof.Gen.Kernel.Points
import proofs.«425066_j89300960019112_2_alg».proof.Proof.Gen.Kernel.Frame
import proofs.«425066_j89300960019112_2_alg».proof.Proof.Gen.KernelIdeal
import proofs.«425066_j89300960019112_2_alg».proof.Proof.Gen.KernelIdeal.Skeleton
import proofs.«425066_j89300960019112_2_alg».proof.Proof.Gen.KernelIdeal.Launch
import proofs.«425066_j89300960019112_2_alg».proof.Proof.Gen.KernelIdeal.Points
import proofs.«425066_j89300960019112_2_alg».proof.Proof.Gen.KernelIdeal.Frame
import proofs.«425066_j89300960019112_2_alg».proof.Proof.Gen.ReferenceIdeal
import proofs.«425066_j89300960019112_2_alg».proof.Proof.Gen.ReferenceIdeal.Run
import proofs.«425066_j89300960019112_2_alg».proof.Proof.Gen.ReferenceIdeal.Read
import proofs.«425066_j89300960019112_2_alg».proof.Proof.Gen.Pre_finite_inputs
import proofs.«425066_j89300960019112_2_alg».proof.Proof.Spec
import proofs.«425066_j89300960019112_2_alg».proof.Proof.PreFacts
import proofs.«425066_j89300960019112_2_alg».proof.Proof.Algebra
import proofs.«425066_j89300960019112_2_alg».proof.Proof.RefValue
import proofs.«425066_j89300960019112_2_alg».proof.Proof.KernelValue
import Idealize.ShloMosaic.Adequacy
import Idealize.ShloMosaic.Init

noncomputable section

namespace Cert.Proof

open Idealize.ShloMosaic Idealize.SL.Sem

/-- The kernel as printed runs, faults nowhere and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the reading over the extended reals. -/
theorem preserves : Cert.preserves_Kernel_KernelIdeal := trivial

/-- From memories that agree on the arguments, both programs end with the same array: the kernel's run leaves the mean-first
    form, the reference's run the outer-products-first form, and for finite entries and indices that are bucket numbers the
    two are one function. -/
theorem algebraic : Cert.algebraic_KernelIdeal_ReferenceIdeal := by
  intro m ρ m' ρ' hpre hagree
  refine ⟨fun c => Cert.Buckets.kerArr (Cert.Buckets.Kernel.aIdx m c) (Cert.Buckets.Kernel.aKeys m c)
    (Cert.Buckets.Kernel.aVals m c) (Cert.Buckets.Kernel.aQ m c), Cert.Buckets.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3⟩ := hagree c
  obtain ⟨hk, hv, -, hi⟩ := Cert.Buckets.Pre.of_pre _ _ _ _ (hpre c)
  rw [Cert.ReferenceIdeal.Read.val_main_v21_eq, Cert.Buckets.Ref.ref_value, e0, e1, e2, e3]
  exact Cert.Buckets.refArr_eq_kerArr _ _ _ _ hk hv hi

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
